-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v51)) (v3 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S2x524288 : Shape := ⟨2, ![2, 524288]⟩
abbrev S32000x256 : Shape := ⟨2, ![32000, 256]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S131072 : S_.BroadcastsInDim S131072 (![] : Fin 0 → Fin S131072.rank)
  reducesTo_S131072_S_d0 : S131072.ReducesTo [0] S_

variable [Facts]

def fn_part2 {F : FTy → Type} [FloatOps F] (main_arg0 : IVec S131072 32) (main_v33 : IVec S_ 1) : IVec S_ 1 :=
  let main_c_12 : IVec S_ 32 := constantI S_ 32 0#32
  let main_v34 : IVec S131072 32 := broadcastInDim S131072 ![] bcast_S_S131072 main_c_12
  let main_v35 : IVec S131072 1 := cmpi .sge main_arg0 main_v34
  let main_c_13 : IVec S_ 1 := constantI S_ 1 1#1
  let main_v36 : IVec S_ 1 := (fun x v => Host.reduce IntOp.andi x v reducesTo_S131072_S_d0 h_S_) main_v35 main_c_13
  let main_v37 : IVec S_ 1 := andi main_v33 main_v36
  let main_c_14 : IVec S_ 32 := constantI S_ 32 32000#32
  let main_v38 : IVec S131072 32 := broadcastInDim S131072 ![] bcast_S_S131072 main_c_14
  let main_v39 : IVec S131072 1 := cmpi .slt main_arg0 main_v38
  let main_c_15 : IVec S_ 1 := constantI S_ 1 1#1
  let main_v40 : IVec S_ 1 := (fun x v => Host.reduce IntOp.andi x v reducesTo_S131072_S_d0 h_S_) main_v39 main_c_15
  let main_v41 : IVec S_ 1 := andi main_v37 main_v40
  main_v41

def fn_part1 {F : FTy → Type} [FloatOps F] (main_arg0 : IVec S131072 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_v33

def fn {F : FTy → Type} [FloatOps F] (main_arg0 : IVec S131072 32) (main_arg1 : IVec S2x524288 32) (main_arg2 : FVec F S32000x256 .f32) (main_arg3 : FVec F S128x256 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S32000x256 .f32 := Host.absf main_arg2
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_v13 main_v16
-- ==== Kernel.lean ====
abbrev S131072 : Shape := ⟨1, ![131072]⟩
abbrev S2x524288 : Shape := ⟨2, ![2, 524288]⟩
abbrev S32000x256 : Shape := ⟨2, ![32000, 256]⟩
abbrev S128x256 : Shape := ⟨2, ![128, 256]⟩
abbrev S128 : Shape := ⟨1, ![128]⟩
abbrev S128x128 : Shape := ⟨2, ![128, 128]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x256 : Shape := ⟨2, ![131072, 256]⟩
abbrev S256x128 : Shape := ⟨2, ![256, 128]⟩
abbrev S1x128 : Shape := ⟨2, ![1, 128]⟩
abbrev S131072x128 : Shape := ⟨2, ![131072, 128]⟩
abbrev S8192x256 : Shape := ⟨2, ![8192, 256]⟩
abbrev S8192x128 : Shape := ⟨2, ![8192, 128]⟩
abbrev S1x524288 : Shape := ⟨2, ![1, 524288]⟩
abbrev S524288 : Shape := ⟨1, ![524288]⟩
abbrev S655360 : Shape := ⟨1, ![655360]⟩
abbrev S655360x1 : Shape := ⟨2, ![655360, 1]⟩
abbrev S16384x128 : Shape := ⟨2, ![16384, 128]⟩
abbrev S16384x1 : Shape := ⟨2, ![16384, 1]⟩
abbrev S655360x128 : Shape := ⟨2, ![655360, 128]⟩
abbrev S64x2048x128 : Shape := ⟨3, ![64, 2048, 128]⟩
abbrev S64x2048 : Shape := ⟨2, ![64, 2048]⟩
abbrev S2048 : Shape := ⟨1, ![2048]⟩

abbrev nBuf : Space → Nat
  | .hbm => 98
  | .vmem => 28
  | .smem => 0
  | _ => 0

abbrev bufTy : (tb : Table) → Fin (tcTables nBuf tb) → BufTy
  | .hbm, ⟨0, _⟩ => ⟨S131072, .i32⟩
  | .hbm, ⟨1, _⟩ => ⟨S2x524288, .i32⟩
  | .hbm, ⟨2, _⟩ => ⟨S32000x256, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S1, .i32⟩
  | .hbm, ⟨18, _⟩ => ⟨S_, .i32⟩
  | .hbm, ⟨19, _⟩ => ⟨S131072x1, .i32⟩
  | .hbm, ⟨20, _⟩ => ⟨S131072x1, .i1⟩
  | .hbm, ⟨21, _⟩ => ⟨S1x1, .i32⟩
  | .hbm, ⟨22, _⟩ => ⟨S131072x1, .i32⟩
  | .hbm, ⟨23, _⟩ => ⟨S131072x1, .i1⟩
  | .hbm, ⟨24, _⟩ => ⟨S131072x1, .i1⟩
  | .hbm, ⟨25, _⟩ => ⟨S_, .i1⟩
  | .hbm, ⟨26, _⟩ => ⟨S131072, .i1⟩
  | .hbm, ⟨27, _⟩ => ⟨S131072x256, .f32⟩
  | .hbm, ⟨28, _⟩ => ⟨S131072x256, .i1⟩
  | .hbm, ⟨29, _⟩ => ⟨S_, .f32⟩
  | .hbm, ⟨30, _⟩ => ⟨S131072x256, .f32⟩
  | .hbm, ⟨31, _⟩ => ⟨S131072x256, .f32⟩
  | .hbm, ⟨32, _⟩ => ⟨S256x128, .f32⟩
  | .hbm, ⟨33, _⟩ => ⟨S1x128, .f32⟩
  | .hbm, ⟨34, _⟩ => ⟨S131072x128, .f32⟩
  | .hbm, ⟨35, _⟩ => ⟨S131072, .i32⟩
  | .hbm, ⟨36, _⟩ => ⟨S1x524288, .i32⟩
  | .hbm, ⟨37, _⟩ => ⟨S524288, .i32⟩
  | .hbm, ⟨38, _⟩ => ⟨S655360, .i32⟩
  | .hbm, ⟨39, _⟩ => ⟨S1x524288, .i32⟩
  | .hbm, ⟨40, _⟩ => ⟨S524288, .i32⟩
  | .hbm, ⟨41, _⟩ => ⟨S655360, .i32⟩
  | .hbm, ⟨42, _⟩ => ⟨S_, .f32⟩
  | .hbm, ⟨43, _⟩ => ⟨S655360, .f32⟩
  | .hbm, ⟨44, _⟩ => ⟨S_, .f32⟩
  | .hbm, ⟨45, _⟩ => ⟨S131072, .f32⟩
  | .hbm, ⟨46, _⟩ => ⟨S655360x1, .i32⟩
  | .hbm, ⟨47, _⟩ => ⟨S131072, .f32⟩
  | .hbm, ⟨48, _⟩ => ⟨S_, .f32⟩
  | .hbm, ⟨49, _⟩ => ⟨S131072, .f32⟩
  | .hbm, ⟨50, _⟩ => ⟨S131072, .i1⟩
  | .hbm, ⟨51, _⟩ => ⟨S131072, .f32⟩
  | .hbm, ⟨52, _⟩ => ⟨S_, .f32⟩
  | .hbm, ⟨53, _⟩ => ⟨S_, .f32⟩
  | .hbm, ⟨54, _⟩ => ⟨S131072, .f32⟩
  | .hbm, ⟨55, _⟩ => ⟨S131072, .f32⟩
  | .hbm, ⟨56, _⟩ => ⟨S128x128, .f32⟩
  | .hbm, ⟨57, _⟩ => ⟨S131072x1, .f32⟩
  | .hbm, ⟨58, _⟩ => ⟨S131072x128, .f32⟩
  | .hbm, ⟨59, _⟩ => ⟨S_, .i32⟩
  | .hbm, ⟨60, _⟩ => ⟨S655360, .i32⟩
  | .hbm, ⟨61, _⟩ => ⟨S655360, .i1⟩
  | .hbm, ⟨62, _⟩ => ⟨S_, .i32⟩
  | .hbm, ⟨63, _⟩ => ⟨S655360, .i32⟩
  | .hbm, ⟨64, _⟩ => ⟨S655360, .i32⟩
  | .hbm, ⟨65, _⟩ => ⟨S655360, .i32⟩
  | .hbm, ⟨66, _⟩ => ⟨S655360x1, .i32⟩
  | .hbm, ⟨67, _⟩ => ⟨S655360x128, .f32⟩
  | .hbm, ⟨68, _⟩ => ⟨S_, .f32⟩
  | .hbm, ⟨69, _⟩ => ⟨S131072x128, .f32⟩
  | .hbm, ⟨70, _⟩ => ⟨S655360x1, .i32⟩
  | .hbm, ⟨71, _⟩ => ⟨S131072x128, .f32⟩
  | .hbm, ⟨72, _⟩ => ⟨S128x128, .f32⟩
  | .hbm, ⟨73, _⟩ => ⟨S131072x1, .f32⟩
  | .hbm, ⟨74, _⟩ => ⟨S1x128, .f32⟩
  | .hbm, ⟨75, _⟩ => ⟨S131072x128, .f32⟩
  | .hbm, ⟨76, _⟩ => ⟨S_, .i32⟩
  | .hbm, ⟨77, _⟩ => ⟨S655360, .i32⟩
  | .hbm, ⟨78, _⟩ => ⟨S655360, .i1⟩
  | .hbm, ⟨79, _⟩ => ⟨S_, .i32⟩
  | .hbm, ⟨80, _⟩ => ⟨S655360, .i32⟩
  | .hbm, ⟨81, _⟩ => ⟨S655360, .i32⟩
  | .hbm, ⟨82, _⟩ => ⟨S655360, .i32⟩
  | .hbm, ⟨83, _⟩ => ⟨S655360x1, .i32⟩
  | .hbm, ⟨84, _⟩ => ⟨S655360x128, .f32⟩
  | .hbm, ⟨85, _⟩ => ⟨S_, .f32⟩
  | .hbm, ⟨86, _⟩ => ⟨S131072x128, .f32⟩
  | .hbm, ⟨87, _⟩ => ⟨S655360x1, .i32⟩
  | .hbm, ⟨88, _⟩ => ⟨S131072x128, .f32⟩
  | .hbm, ⟨89, _⟩ => ⟨S131072x1, .f32⟩
  | .hbm, ⟨90, _⟩ => ⟨S1x128, .f32⟩
  | .hbm, ⟨91, _⟩ => ⟨S131072x128, .f32⟩
  | .hbm, ⟨92, _⟩ => ⟨S64x2048x128, .f32⟩
  | .hbm, ⟨93, _⟩ => ⟨S64x2048, .i32⟩
  | .hbm, ⟨94, _⟩ => ⟨S_, .i1⟩
  | .hbm, ⟨95, _⟩ => ⟨S64x2048, .i1⟩
  | .hbm, ⟨96, _⟩ => ⟨S2048, .i32⟩
  | .hbm, ⟨97, _⟩ => ⟨S64x2048, .i32⟩
  | .local _ .vmem, ⟨0, _⟩ => ⟨S8192x256, .f32⟩
  | .local _ .vmem, ⟨1, _⟩ => ⟨S8192x256, .f32⟩
  | .local _ .vmem, ⟨2, _⟩ => ⟨S256x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S16384x128, .f32⟩
  | .local _ .vmem, ⟨7, _⟩ => ⟨S16384x128, .f32⟩
  | .local _ .vmem, ⟨8, _⟩ => ⟨S128x128, .f32⟩
  | .local _ .vmem, ⟨9, _⟩ => ⟨S16384x1, .f32⟩
  | .local _ .vmem, ⟨10, _⟩ => ⟨S16384x1, .f32⟩
  | .local _ .vmem, ⟨11, _⟩ => ⟨S16384x128, .f32⟩
  | .local _ .vmem, ⟨12, _⟩ => ⟨S16384x128, .f32⟩
  | .local _ .vmem, ⟨13, _⟩ => ⟨S16384x128, .f32⟩
  | .local _ .vmem, ⟨14, _⟩ => ⟨S16384x128, .f32⟩
  | .local _ .vmem, ⟨15, _⟩ => ⟨S16384x1, .f32⟩
  | .local _ .vmem, ⟨16, _⟩ => ⟨S16384x1, .f32⟩
  | .local _ .vmem, ⟨17, _⟩ => ⟨S1x128, .f32⟩
  | .local _ .vmem, ⟨18, _⟩ => ⟨S128x128, .f32⟩
  | .local _ .vmem, ⟨19, _⟩ => ⟨S16384x128, .f32⟩
  | .local _ .vmem, ⟨20, _⟩ => ⟨S16384x128, .f32⟩
  | .local _ .vmem, ⟨21, _⟩ => ⟨S16384x128, .f32⟩
  | .local _ .vmem, ⟨22, _⟩ => ⟨S16384x128, .f32⟩
  | .local _ .vmem, ⟨23, _⟩ => ⟨S16384x1, .f32⟩
  | .local _ .vmem, ⟨24, _⟩ => ⟨S16384x1, .f32⟩
  | .local _ .vmem, ⟨25, _⟩ => ⟨S1x128, .f32⟩
  | .local _ .vmem, ⟨26, _⟩ => ⟨S16384x128, .f32⟩
  | .local _ .vmem, ⟨27, _⟩ => ⟨S16384x128, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_1 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c : Ref sig .tc := ⟨.hbm, 59, rfl⟩
abbrev main_v22 : Ref sig .tc := ⟨.hbm, 60, rfl⟩
abbrev main_v23 : Ref sig .tc := ⟨.hbm, 61, rfl⟩
abbrev main_c_3 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_4 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_5 : Ref sig .tc := ⟨.hbm, 76, rfl⟩
abbrev main_v36 : Ref sig .tc := ⟨.hbm, 77, rfl⟩
abbrev main_v37 : Ref sig .tc := ⟨.hbm, 78, rfl⟩
abbrev main_c_6 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_7 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_8 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16384x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16384x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16384x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16384x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16384x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S16384x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x256_0 : S131072.BroadcastsInDim S131072x256 (![0] : Fin 1 → Fin S131072x256.rank)
  bcast_S_S131072x256 : S_.BroadcastsInDim S131072x256 (![] : Fin 0 → Fin S131072x256.rank)
  transposes_S128x256_S256x128_1_0 : S128x256.Transposes [1, 0] S256x128
  shapeCasts_S128_S1x128 : S128.ShapeCasts S1x128
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  slices_S2x524288_S1x524288_0_0 : S2x524288.Slices ![0, 0] S1x524288
  shapeCasts_S1x524288_S524288 : S1x524288.ShapeCasts S524288
  concatenates_S524288_S131072_S655360_d0 : Shape.Concatenates [S524288, S131072] S655360 0
  slices_S2x524288_S1x524288_1_0 : S2x524288.Slices ![1, 0] S1x524288
  bcast_S_S655360 : S_.BroadcastsInDim S655360 (![] : Fin 0 → Fin S655360.rank)
  bcast_S655360_S655360x1_0 : S655360.BroadcastsInDim S655360x1 (![0] : Fin 1 → Fin S655360x1.rank)
  transposes_S128x128_S128x128_1_0 : S128x128.Transposes [1, 0] S128x128
  shapeCasts_S131072_S131072x1 : S131072.ShapeCasts S131072x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  broadcasts_S16384x1_S16384x128 : S16384x1.Broadcasts S16384x128
  bcast_S_S131072x128 : S_.BroadcastsInDim S131072x128 (![] : Fin 0 → Fin S131072x128.rank)
  broadcasts_S1x128_S16384x128 : S1x128.Broadcasts S16384x128
  shapeCasts_S131072x128_S64x2048x128 : S131072x128.ShapeCasts S64x2048x128
  shapeCasts_S131072_S64x2048 : S131072.ShapeCasts S64x2048
  bcast_S_S64x2048 : S_.BroadcastsInDim S64x2048 (![] : Fin 0 → Fin S64x2048.rank)
  bcast_S2048_S64x2048_1 : S2048.BroadcastsInDim S64x2048 (![1] : Fin 1 → Fin S64x2048.rank)
  gather_S32000x256_S131072x1_S131072x256_1_0_n_n_0_1_1256_wf : GatherDims.WF S32000x256 S131072x1 S131072x256 [1] [0] [] [0] [] 1 ![1, 256]
  dot_S8192x256_S256x128_S8192x128_1_0_0_1_n_n_wf : DotDims.WF S8192x256 S256x128 S8192x128 [1] [0] [0] [1] [] []
  scatter_S131072_S655360x1_S655360_n_0_0_1_wf : ScatterDims.WF S131072 S655360x1 S655360 [] [0] [0] 1
  dot_S16384x128_S128x128_S16384x128_1_0_0_1_n_n_wf : DotDims.WF S16384x128 S128x128 S16384x128 [1] [0] [0] [1] [] []
  gather_S131072x128_S655360x1_S655360x128_1_0_n_n_0_1_1128_wf : GatherDims.WF S131072x128 S655360x1 S655360x128 [1] [0] [] [0] [] 1 ![1, 128]
  scatter_S131072x128_S655360x1_S655360x128_1_0_0_1_wf : ScatterDims.WF S131072x128 S655360x1 S655360x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .f32 = 32 ∨ (Rect.block (s := S131072x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x128.size a ≤ S131072x128.size a
  hwx1_0 : ∀ i : grid1.Coords, EltTy.bits .f32 = 32 ∨ (Rect.block (s := S131072x128) S16384x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x1.size a ≤ S131072x1.size a
  hwx1_2 : ∀ i : grid1.Coords, EltTy.bits .f32 = 32 ∨ (Rect.block (s := S131072x1) S16384x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16384x128.size a ≤ S131072x128.size a
  hwx1_3 : ∀ i : grid1.Coords, EltTy.bits .f32 = 32 ∨ (Rect.block (s := S131072x128) S16384x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x128.size a ≤ S131072x128.size a
  hwx2_0 : ∀ i : grid2.Coords, EltTy.bits .f32 = 32 ∨ (Rect.block (s := S131072x128) S16384x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x1.size a ≤ S131072x1.size a
  hwx2_1 : ∀ i : grid2.Coords, EltTy.bits .f32 = 32 ∨ (Rect.block (s := S131072x1) S16384x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16384x128.size a ≤ S131072x128.size a
  hwx2_4 : ∀ i : grid2.Coords, EltTy.bits .f32 = 32 ∨ (Rect.block (s := S131072x128) S16384x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16384x128.size a ≤ S131072x128.size a
  hwx3_0 : ∀ i : grid3.Coords, EltTy.bits .f32 = 32 ∨ (Rect.block (s := S131072x128) S16384x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16384x1.size a ≤ S131072x1.size a
  hwx3_1 : ∀ i : grid3.Coords, EltTy.bits .f32 = 32 ∨ (Rect.block (s := S131072x1) S16384x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16384x128.size a ≤ S131072x128.size a
  hwx3_3 : ∀ i : grid3.Coords, EltTy.bits .f32 = 32 ∨ (Rect.block (s := S131072x128) S16384x128.size (cc3_transform_3 i) (hinb3_3 i)).WholeWords (EltTy.packing .f32)

variable [Facts₀]

def gather_S32000x256_S131072x1_S131072x256_1_0_n_n_0_1_1256 : GatherDims S32000x256 S131072x1 S131072x256 where
  offsetDims := [1]
  collapsedSliceDims := [0]
  operandBatchingDims := []
  startIndicesBatchingDims := []
  startIndexMap := [0]
  indexVectorDim := 1
  sliceSizes := ![1, 256]
  wf := gather_S32000x256_S131072x1_S131072x256_1_0_n_n_0_1_1256_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S131072_S655360x1_S655360_n_0_0_1 : ScatterDims S131072 S655360x1 S655360 where
  updateWindowDims := []
  insertedWindowDims := [0]
  scatterDimsToOperandDims := [0]
  indexVectorDim := 1
  wf := scatter_S131072_S655360x1_S655360_n_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S131072x128_S655360x1_S655360x128_1_0_n_n_0_1_1128 : GatherDims S131072x128 S655360x1 S655360x128 where
  offsetDims := [1]
  collapsedSliceDims := [0]
  operandBatchingDims := []
  startIndicesBatchingDims := []
  startIndexMap := [0]
  indexVectorDim := 1
  sliceSizes := ![1, 128]
  wf := gather_S131072x128_S655360x1_S655360x128_1_0_n_n_0_1_1128_wf
def scatter_S131072x128_S655360x1_S655360x128_1_0_0_1 : ScatterDims S131072x128 S655360x1 S655360x128 where
  updateWindowDims := [1]
  insertedWindowDims := [0]
  scatterDimsToOperandDims := [0]
  indexVectorDim := 1
  wf := scatter_S131072x128_S655360x1_S655360x128_1_0_0_1_wf

abbrev win0_0 : Pipeline.Window sig grid0 :=
  Pipeline.Window.ofSpec (Memref.whole main_v0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S16384x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S16384x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S16384x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S16384x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S16384x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S16384x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S16384x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S16384x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S16384x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S131072 : Shape := ⟨1, ![131072]⟩
abbrev S2x524288 : Shape := ⟨2, ![2, 524288]⟩
abbrev S32000x256 : Shape := ⟨2, ![32000, 256]⟩
abbrev S128x256 : Shape := ⟨2, ![128, 256]⟩
abbrev S128 : Shape := ⟨1, ![128]⟩
abbrev S128x128 : Shape := ⟨2, ![128, 128]⟩
abbrev S_ : Shape := ⟨0, ![]⟩
abbrev S131072x1 : Shape := ⟨2, ![131072, 1]⟩
abbrev S131072x256 : Shape := ⟨2, ![131072, 256]⟩
abbrev S256x128 : Shape := ⟨2, ![256, 128]⟩
abbrev S131072x128 : Shape := ⟨2, ![131072, 128]⟩
abbrev S1x128 : Shape := ⟨2, ![1, 128]⟩
abbrev S1x524288 : Shape := ⟨2, ![1, 524288]⟩
abbrev S524288 : Shape := ⟨1, ![524288]⟩
abbrev S655360 : Shape := ⟨1, ![655360]⟩
abbrev S655360x1 : Shape := ⟨2, ![655360, 1]⟩
abbrev S655360x128 : Shape := ⟨2, ![655360, 128]⟩
abbrev S64x2048x128 : Shape := ⟨3, ![64, 2048, 128]⟩
abbrev S64x2048 : Shape := ⟨2, ![64, 2048]⟩
abbrev S2048 : Shape := ⟨1, ![2048]⟩

abbrev nBuf : Space → Nat
  | .hbm => 114
  | .vmem => 0
  | .smem => 0
  | _ => 0

abbrev bufTy : (tb : Table) → Fin (tcTables nBuf tb) → BufTy
  | .hbm, ⟨0, _⟩ => ⟨S131072, .i32⟩
  | .hbm, ⟨1, _⟩ => ⟨S2x524288, .i32⟩
  | .hbm, ⟨2, _⟩ => ⟨S32000x256, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S131072x256, .f32⟩
  | .hbm, ⟨18, _⟩ => ⟨S256x128, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S131072, .i32⟩
  | .hbm, ⟨24, _⟩ => ⟨S1x524288, .i32⟩
  | .hbm, ⟨25, _⟩ => ⟨S524288, .i32⟩
  | .hbm, ⟨26, _⟩ => ⟨S655360, .i32⟩
  | .hbm, ⟨27, _⟩ => ⟨S1x524288, .i32⟩
  | .hbm, ⟨28, _⟩ => ⟨S524288, .i32⟩
  | .hbm, ⟨29, _⟩ => ⟨S655360, .i32⟩
  | .hbm, ⟨30, _⟩ => ⟨S_, .f32⟩
  | .hbm, ⟨31, _⟩ => ⟨S655360, .f32⟩
  | .hbm, ⟨32, _⟩ => ⟨S_, .f32⟩
  | .hbm, ⟨33, _⟩ => ⟨S131072, .f32⟩
  | .hbm, ⟨34, _⟩ => ⟨S655360x1, .i32⟩
  | .hbm, ⟨35, _⟩ => ⟨S131072, .f32⟩
  | .hbm, ⟨36, _⟩ => ⟨S_, .f32⟩
  | .hbm, ⟨37, _⟩ => ⟨S131072, .f32⟩
  | .hbm, ⟨38, _⟩ => ⟨S131072, .i1⟩
  | .hbm, ⟨39, _⟩ => ⟨S131072, .f32⟩
  | .hbm, ⟨40, _⟩ => ⟨S_, .f32⟩
  | .hbm, ⟨41, _⟩ => ⟨S_, .f32⟩
  | .hbm, ⟨42, _⟩ => ⟨S131072, .f32⟩
  | .hbm, ⟨43, _⟩ => ⟨S131072, .f32⟩
  | .hbm, ⟨44, _⟩ => ⟨S_, .i32⟩
  | .hbm, ⟨45, _⟩ => ⟨S655360, .i32⟩
  | .hbm, ⟨46, _⟩ => ⟨S655360, .i1⟩
  | .hbm, ⟨47, _⟩ => ⟨S_, .i32⟩
  | .hbm, ⟨48, _⟩ => ⟨S655360, .i32⟩
  | .hbm, ⟨49, _⟩ => ⟨S655360, .i32⟩
  | .hbm, ⟨50, _⟩ => ⟨S655360, .i32⟩
  | .hbm, ⟨51, _⟩ => ⟨S655360x1, .i32⟩
  | .hbm, ⟨52, _⟩ => ⟨S655360, .f32⟩
  | .hbm, ⟨53, _⟩ => ⟨S_, .i32⟩
  | .hbm, ⟨54, _⟩ => ⟨S655360, .i32⟩
  | .hbm, ⟨55, _⟩ => ⟨S655360, .i1⟩
  | .hbm, ⟨56, _⟩ => ⟨S_, .i32⟩
  | .hbm, ⟨57, _⟩ => ⟨S655360, .i32⟩
  | .hbm, ⟨58, _⟩ => ⟨S655360, .i32⟩
  | .hbm, ⟨59, _⟩ => ⟨S655360, .i32⟩
  | .hbm, ⟨60, _⟩ => ⟨S655360x1, .i32⟩
  | .hbm, ⟨61, _⟩ => ⟨S655360, .f32⟩
  | .hbm, ⟨62, _⟩ => ⟨S655360, .f32⟩
  | .hbm, ⟨63, _⟩ => ⟨S128x128, .f32⟩
  | .hbm, ⟨64, _⟩ => ⟨S131072x128, .f32⟩
  | .hbm, ⟨65, _⟩ => ⟨S_, .i32⟩
  | .hbm, ⟨66, _⟩ => ⟨S655360, .i32⟩
  | .hbm, ⟨67, _⟩ => ⟨S655360, .i1⟩
  | .hbm, ⟨68, _⟩ => ⟨S_, .i32⟩
  | .hbm, ⟨69, _⟩ => ⟨S655360, .i32⟩
  | .hbm, ⟨70, _⟩ => ⟨S655360, .i32⟩
  | .hbm, ⟨71, _⟩ => ⟨S655360, .i32⟩
  | .hbm, ⟨72, _⟩ => ⟨S655360x1, .i32⟩
  | .hbm, ⟨73, _⟩ => ⟨S655360x128, .f32⟩
  | .hbm, ⟨74, _⟩ => ⟨S655360x1, .f32⟩
  | .hbm, ⟨75, _⟩ => ⟨S655360x128, .f32⟩
  | .hbm, ⟨76, _⟩ => ⟨S655360x128, .f32⟩
  | .hbm, ⟨77, _⟩ => ⟨S_, .f32⟩
  | .hbm, ⟨78, _⟩ => ⟨S131072x128, .f32⟩
  | .hbm, ⟨79, _⟩ => ⟨S655360x1, .i32⟩
  | .hbm, ⟨80, _⟩ => ⟨S131072x128, .f32⟩
  | .hbm, ⟨81, _⟩ => ⟨S1x128, .f32⟩
  | .hbm, ⟨82, _⟩ => ⟨S131072x128, .f32⟩
  | .hbm, ⟨83, _⟩ => ⟨S131072x128, .f32⟩
  | .hbm, ⟨84, _⟩ => ⟨S_, .f32⟩
  | .hbm, ⟨85, _⟩ => ⟨S131072x128, .f32⟩
  | .hbm, ⟨86, _⟩ => ⟨S131072x128, .f32⟩
  | .hbm, ⟨87, _⟩ => ⟨S128x128, .f32⟩
  | .hbm, ⟨88, _⟩ => ⟨S131072x128, .f32⟩
  | .hbm, ⟨89, _⟩ => ⟨S_, .i32⟩
  | .hbm, ⟨90, _⟩ => ⟨S655360, .i32⟩
  | .hbm, ⟨91, _⟩ => ⟨S655360, .i1⟩
  | .hbm, ⟨92, _⟩ => ⟨S_, .i32⟩
  | .hbm, ⟨93, _⟩ => ⟨S655360, .i32⟩
  | .hbm, ⟨94, _⟩ => ⟨S655360, .i32⟩
  | .hbm, ⟨95, _⟩ => ⟨S655360, .i32⟩
  | .hbm, ⟨96, _⟩ => ⟨S655360x1, .i32⟩
  | .hbm, ⟨97, _⟩ => ⟨S655360x128, .f32⟩
  | .hbm, ⟨98, _⟩ => ⟨S655360x1, .f32⟩
  | .hbm, ⟨99, _⟩ => ⟨S655360x128, .f32⟩
  | .hbm, ⟨100, _⟩ => ⟨S655360x128, .f32⟩
  | .hbm, ⟨101, _⟩ => ⟨S_, .f32⟩
  | .hbm, ⟨102, _⟩ => ⟨S131072x128, .f32⟩
  | .hbm, ⟨103, _⟩ => ⟨S655360x1, .i32⟩
  | .hbm, ⟨104, _⟩ => ⟨S131072x128, .f32⟩
  | .hbm, ⟨105, _⟩ => ⟨S1x128, .f32⟩
  | .hbm, ⟨106, _⟩ => ⟨S131072x128, .f32⟩
  | .hbm, ⟨107, _⟩ => ⟨S131072x128, .f32⟩
  | .hbm, ⟨108, _⟩ => ⟨S64x2048x128, .f32⟩
  | .hbm, ⟨109, _⟩ => ⟨S64x2048, .i32⟩
  | .hbm, ⟨110, _⟩ => ⟨S_, .i1⟩
  | .hbm, ⟨111, _⟩ => ⟨S64x2048, .i1⟩
  | .hbm, ⟨112, _⟩ => ⟨S2048, .i32⟩
  | .hbm, ⟨113, _⟩ => ⟨S64x2048, .i32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  transposes_S128x256_S256x128_1_0 : S128x256.Transposes [1, 0] S256x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  slices_S2x524288_S1x524288_0_0 : S2x524288.Slices ![0, 0] S1x524288
  shapeCasts_S1x524288_S524288 : S1x524288.ShapeCasts S524288
  concatenates_S524288_S131072_S655360_d0 : Shape.Concatenates [S524288, S131072] S655360 0
  slices_S2x524288_S1x524288_1_0 : S2x524288.Slices ![1, 0] S1x524288
  bcast_S_S655360 : S_.BroadcastsInDim S655360 (![] : Fin 0 → Fin S655360.rank)
  bcast_S655360_S655360x1_0 : S655360.BroadcastsInDim S655360x1 (![0] : Fin 1 → Fin S655360x1.rank)
  transposes_S128x128_S128x128_1_0 : S128x128.Transposes [1, 0] S128x128
  bcast_S655360x1_S655360x128_0_1 : S655360x1.BroadcastsInDim S655360x128 (![0, 1] : Fin 2 → Fin S655360x128.rank)
  bcast_S_S131072x128 : S_.BroadcastsInDim S131072x128 (![] : Fin 0 → Fin S131072x128.rank)
  shapeCasts_S131072x128_S64x2048x128 : S131072x128.ShapeCasts S64x2048x128
  shapeCasts_S131072_S64x2048 : S131072.ShapeCasts S64x2048
  bcast_S_S64x2048 : S_.BroadcastsInDim S64x2048 (![] : Fin 0 → Fin S64x2048.rank)
  bcast_S2048_S64x2048_1 : S2048.BroadcastsInDim S64x2048 (![1] : Fin 1 → Fin S64x2048.rank)
  gather_S32000x256_S131072x1_S131072x256_1_0_n_n_0_1_1256_wf : GatherDims.WF S32000x256 S131072x1 S131072x256 [1] [0] [] [0] [] 1 ![1, 256]
  dot_S131072x256_S256x128_S131072x128_1_0_0_1_n_n_wf : DotDims.WF S131072x256 S256x128 S131072x128 [1] [0] [0] [1] [] []
  scatter_S131072_S655360x1_S655360_n_0_0_1_wf : ScatterDims.WF S131072 S655360x1 S655360 [] [0] [0] 1
  gather_S131072_S655360x1_S655360_n_0_n_n_0_1_1_wf : GatherDims.WF S131072 S655360x1 S655360 [] [0] [] [0] [] 1 ![1]
  dot_S131072x128_S128x128_S131072x128_1_0_0_1_n_n_wf : DotDims.WF S131072x128 S128x128 S131072x128 [1] [0] [0] [1] [] []
  gather_S131072x128_S655360x1_S655360x128_1_0_n_n_0_1_1128_wf : GatherDims.WF S131072x128 S655360x1 S655360x128 [1] [0] [] [0] [] 1 ![1, 128]
  scatter_S131072x128_S655360x1_S655360x128_1_0_0_1_wf : ScatterDims.WF S131072x128 S655360x1 S655360x128 [1] [0] [0] 1

variable [Facts₀]

def gather_S32000x256_S131072x1_S131072x256_1_0_n_n_0_1_1256 : GatherDims S32000x256 S131072x1 S131072x256 where
  offsetDims := [1]
  collapsedSliceDims := [0]
  operandBatchingDims := []
  startIndicesBatchingDims := []
  startIndexMap := [0]
  indexVectorDim := 1
  sliceSizes := ![1, 256]
  wf := gather_S32000x256_S131072x1_S131072x256_1_0_n_n_0_1_1256_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def scatter_S131072_S655360x1_S655360_n_0_0_1 : ScatterDims S131072 S655360x1 S655360 where
  updateWindowDims := []
  insertedWindowDims := [0]
  scatterDimsToOperandDims := [0]
  indexVectorDim := 1
  wf := scatter_S131072_S655360x1_S655360_n_0_0_1_wf
def gather_S131072_S655360x1_S655360_n_0_n_n_0_1_1 : GatherDims S131072 S655360x1 S655360 where
  offsetDims := []
  collapsedSliceDims := [0]
  operandBatchingDims := []
  startIndicesBatchingDims := []
  startIndexMap := [0]
  indexVectorDim := 1
  sliceSizes := ![1]
  wf := gather_S131072_S655360x1_S655360_n_0_n_n_0_1_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def gather_S131072x128_S655360x1_S655360x128_1_0_n_n_0_1_1128 : GatherDims S131072x128 S655360x1 S655360x128 where
  offsetDims := [1]
  collapsedSliceDims := [0]
  operandBatchingDims := []
  startIndicesBatchingDims := []
  startIndexMap := [0]
  indexVectorDim := 1
  sliceSizes := ![1, 128]
  wf := gather_S131072x128_S655360x1_S655360x128_1_0_n_n_0_1_1128_wf
def scatter_S131072x128_S655360x1_S655360x128_1_0_0_1 : ScatterDims S131072x128 S655360x1 S655360x128 where
  updateWindowDims := [1]
  insertedWindowDims := [0]
  scatterDimsToOperandDims := [0]
  indexVectorDim := 1
  wf := scatter_S131072x128_S655360x1_S655360x128_1_0_0_1_wf

class Facts : Prop extends Facts₀ where

variable [Facts]
-- ==== Proof.KernelHost.lean ====
/-
  The host operations of the kernel's program between its four matrix kernels, one stretch at a time.

  Each stretch of host operations is read as a function: from any contents W of the buffers before the stretch, a buffer
  the stretch writes ends at its operation's value of the operands' contents, and a buffer it does not write keeps its
  contents. The values: the table rows taken at the tokens (a token below 0 first moved up by the table's height, rows
  whose moved token is outside the table replaced by a filler), the source and destination words of the edges with one
  loop edge per node appended, the degree of every node as a sum of ones scattered at the destination words, its
  inverse square root where the degree is positive and 0 elsewhere, and, twice, the rows of a matrix gathered at the
  source words and added up at the destination words.
-/
import proofs.«419247_j38972533244081_2_alg».proof.Proof.Gen.KernelIdeal.Launch
import Idealize.ShloMosaic.Lib.StableHlo.Run

set_option maxRecDepth 16384

noncomputable section

namespace Cert.Conv.K

open Idealize.ShloMosaic Idealize.ShloMosaic.TcCoe Idealize.SL.Sem Idealize.ShloMosaic.StableHlo
open Cert.KernelIdeal Cert.KernelIdeal.Gen

variable {F : FTy → Type} [FloatOps F]

local notation "↑ᵣ" b => Proc.devRef Proc.tc b

/-! ## The values -/

/-- A token below 0 moved up by the table's 32000 rows. -/
def wrapTok (tok : IVec S131072 32) : IVec S131072 32 :=
  select (cmpi .slt tok (broadcastInDim S131072 ![] bcast_S_S131072 (constantI S_ 32 0#32)))
    (addi tok (broadcastInDim S131072 ![] bcast_S_S131072 (constantI S_ 32 32000#32))) tok

/-- The moved tokens as a column of start words. -/
def tokCol (tok : IVec S131072 32) : IVec S131072x1 32 :=
  broadcastInDim S131072x1 ![0] bcast_S131072_S131072x1_0 (wrapTok tok)

/-- Per token: the moved token lies between 0 and 31999. -/
def tokInside (tok : IVec S131072 32) : IVec S131072 1 :=
  Host.reduce IntOp.andi
    (andi (cmpi .sge (tokCol tok) (broadcastInDim S131072x1 ![] bcast_S_S131072x1 (constantI S_ 32 0#32)))
      (cmpi .sle (tokCol tok) (broadcastInDim S131072x1 ![0, 1] bcast_S1x1_S131072x1_0_1
        (broadcastInDim S1x1 ![1] bcast_S1_S1x1_1 (constantI S1 32 31999#32)))))
    (constantI S_ 1 1#1) reducesTo_S131072x1_S131072_d1 h_S_

/-- The table's rows at the tokens; a row whose token is outside the table is the filler. -/
def takeRows (tok : IVec S131072 32) (tab : FVec F S32000x256 .f32) : FVec F S131072x256 .f32 :=
  select (broadcastInDim S131072x256 ![0] bcast_S131072_S131072x256_0 (tokInside tok))
    (Host.gather gather_S32000x256_S131072x1_S131072x256_1_0_n_n_0_1_1256 tab (tokCol tok))
    (broadcastInDim S131072x256 ![] bcast_S_S131072x256 (constant S_ .f32 0x7FC00000#32))

/-- Row r of the edge array followed by the node numbers 0, 1, …: the words of the edges and of one loop per node. -/
def edgeWords (r : Fin 2 → Nat) (h : S2x524288.Slices r S1x524288) (edges : IVec S2x524288 32) : IVec S655360 32 :=
  concatenate S655360 0 [⟨S524288, shapeCast S524288 (extractStridedSlice S1x524288 r edges h) shapeCasts_S1x524288_S524288⟩,
    ⟨S131072, iotaInDim S131072 32 0⟩] concatenates_S524288_S131072_S655360_d0

def srcWords (edges : IVec S2x524288 32) : IVec S655360 32 := edgeWords ![0, 0] slices_S2x524288_S1x524288_0_0 edges
def dstWords (edges : IVec S2x524288 32) : IVec S655360 32 := edgeWords ![1, 0] slices_S2x524288_S1x524288_1_0 edges

/-- A vector of words as a column of start words. -/
def asCol (w : IVec S655360 32) : IVec S655360x1 32 := broadcastInDim S655360x1 ![0] bcast_S655360_S655360x1_0 w

/-- A word below 0 moved up by the number of nodes. -/
def wrapNode (w : IVec S655360 32) : IVec S655360 32 :=
  select (cmpi .slt w (broadcastInDim S655360 ![] bcast_S_S655360 (constantI S_ 32 0#32)))
    (addi w (broadcastInDim S655360 ![] bcast_S_S655360 (constantI S_ 32 131072#32))) w

/-- The degree of every node: ones added up at the destination words. -/
def degree (dst : IVec S655360 32) : FVec F S131072 .f32 :=
  Host.scatterAdd scatter_S131072_S655360x1_S655360_n_0_0_1
    (broadcastInDim S131072 ![] bcast_S_S131072 (constant S_ .f32 0x00000000#32)) (asCol dst)
    (broadcastInDim S655360 ![] bcast_S_S655360 (constant S_ .f32 0x3F800000#32))

/-- The inverse square root of a degree vector where it is positive, 0 elsewhere. -/
def invSqrt (deg : FVec F S131072 .f32) : FVec F S131072 .f32 :=
  select (cmpf (F := F) .ogt deg (broadcastInDim S131072 ![] bcast_S_S131072 (constant S_ .f32 0x00000000#32)))
    (Host.rsqrt deg) (broadcastInDim S131072 ![] bcast_S_S131072 (id (constant S_ .f32 0x00000000#32)))

/-- Rows of Y gathered at the moved source words and added up at the destination words. -/
def passEdges (Y : FVec F S131072x128 .f32) (src dst : IVec S655360 32) : FVec F S131072x128 .f32 :=
  Host.scatterAdd scatter_S131072x128_S655360x1_S655360x128_1_0_0_1
    (broadcastInDim S131072x128 ![] bcast_S_S131072x128 (constant S_ .f32 0x00000000#32)) (asCol dst)
    (Host.gather gather_S131072x128_S655360x1_S655360x128_1_0_n_n_0_1_1128 Y (asCol (wrapNode src)))

variable (W : Valuation τ sig (Elt F))

/-! ## Before the first kernel -/

theorem s0_v0 : after hostOps0 W (↑ᵣ main_v0) = takeRows (W (↑ᵣ main_arg0)) (W (↑ᵣ main_arg2)) := by
  unfold takeRows tokInside tokCol wrapTok
  after_results_simp
  simp only [TRef.ofBuf, TRef.toBuf, cast_eq]

theorem s0_keep : after hostOps0 W (↑ᵣ main_arg0) = W (↑ᵣ main_arg0) ∧ after hostOps0 W (↑ᵣ main_arg1) = W (↑ᵣ main_arg1)
    ∧ after hostOps0 W (↑ᵣ main_arg3) = W (↑ᵣ main_arg3) ∧ after hostOps0 W (↑ᵣ main_arg4) = W (↑ᵣ main_arg4)
    ∧ after hostOps0 W (↑ᵣ main_arg5) = W (↑ᵣ main_arg5) ∧ after hostOps0 W (↑ᵣ main_arg6) = W (↑ᵣ main_arg6)
    ∧ after hostOps0 W (↑ᵣ main_arg7) = W (↑ᵣ main_arg7) ∧ after hostOps0 W (↑ᵣ main_arg8) = W (↑ᵣ main_arg8) := by
  refine ⟨?_, ?_, ?_, ?_, ?_, ?_, ?_, ?_⟩ <;> after_results_simp

theorem s01_v1 : after hostOps0_1 W (↑ᵣ main_v1) = transpose S256x128 [1, 0] (W (↑ᵣ main_arg3)) transposes_S128x256_S256x128_1_0 := by
  after_results_simp
theorem s01_v2 : after hostOps0_1 W (↑ᵣ main_v2) = shapeCast S1x128 (W (↑ᵣ main_arg4)) shapeCasts_S128_S1x128 := by
  after_results_simp; rfl

theorem s01_keep : after hostOps0_1 W (↑ᵣ main_v0) = W (↑ᵣ main_v0)
    ∧ after hostOps0_1 W (↑ᵣ main_arg0) = W (↑ᵣ main_arg0) ∧ after hostOps0_1 W (↑ᵣ main_arg1) = W (↑ᵣ main_arg1)
    ∧ after hostOps0_1 W (↑ᵣ main_arg5) = W (↑ᵣ main_arg5) ∧ after hostOps0_1 W (↑ᵣ main_arg6) = W (↑ᵣ main_arg6)
    ∧ after hostOps0_1 W (↑ᵣ main_arg7) = W (↑ᵣ main_arg7) ∧ after hostOps0_1 W (↑ᵣ main_arg8) = W (↑ᵣ main_arg8) := by
  refine ⟨?_, ?_, ?_, ?_, ?_, ?_, ?_⟩ <;> after_results_simp

/-! ## Between the first and the second kernel -/

theorem s1_v7 : after hostOps1 W (↑ᵣ main_v7) = srcWords (W (↑ᵣ main_arg1)) := by
  unfold srcWords edgeWords
  after_results_simp
  try rfl
theorem s1_v10 : after hostOps1 W (↑ᵣ main_v10) = dstWords (W (↑ᵣ main_arg1)) := by
  unfold dstWords edgeWords
  after_results_simp
  try rfl
theorem s1_v14 : after hostOps1 W (↑ᵣ main_v14) = degree (F := F) (dstWords (W (↑ᵣ main_arg1))) := by
  unfold degree asCol dstWords edgeWords
  after_results_simp
  try rfl
theorem s1_v16 : after hostOps1 W (↑ᵣ main_v16)
    = cmpf (F := F) .ogt (degree (F := F) (dstWords (W (↑ᵣ main_arg1)))) (broadcastInDim S131072 ![] bcast_S_S131072 (constant S_ .f32 0x00000000#32)) := by
  unfold degree asCol dstWords edgeWords
  after_results_simp
  try rfl
theorem s1_v17 : after hostOps1 W (↑ᵣ main_v17) = Host.rsqrt (degree (F := F) (dstWords (W (↑ᵣ main_arg1)))) := by
  unfold degree asCol dstWords edgeWords
  after_results_simp
  try rfl
theorem s1_cst2 : after hostOps1 W (↑ᵣ main_cst_2) = constant (F := F) S_ .f32 0x00000000#32 := by
  after_results_simp
  try rfl

theorem s1_keep : after hostOps1 W (↑ᵣ main_v3) = W (↑ᵣ main_v3)
    ∧ after hostOps1 W (↑ᵣ main_arg0) = W (↑ᵣ main_arg0) ∧ after hostOps1 W (↑ᵣ main_arg5) = W (↑ᵣ main_arg5)
    ∧ after hostOps1 W (↑ᵣ main_arg6) = W (↑ᵣ main_arg6) ∧ after hostOps1 W (↑ᵣ main_arg7) = W (↑ᵣ main_arg7)
    ∧ after hostOps1 W (↑ᵣ main_arg8) = W (↑ᵣ main_arg8) := by
  refine ⟨?_, ?_, ?_, ?_, ?_, ?_⟩ <;> after_results_simp

theorem s11_v18 : after hostOps1_1 W (↑ᵣ main_v18)
    = select (W (↑ᵣ main_v16)) (W (↑ᵣ main_v17)) (broadcastInDim S131072 ![] bcast_S_S131072 (id (W (↑ᵣ main_cst_2)))) := by
  after_results_simp
  try simp only [TRef.ofBuf, TRef.toBuf, cast_eq]

theorem s11_keep : after hostOps1_1 W (↑ᵣ main_v3) = W (↑ᵣ main_v3) ∧ after hostOps1_1 W (↑ᵣ main_v7) = W (↑ᵣ main_v7)
    ∧ after hostOps1_1 W (↑ᵣ main_v10) = W (↑ᵣ main_v10)
    ∧ after hostOps1_1 W (↑ᵣ main_arg0) = W (↑ᵣ main_arg0) ∧ after hostOps1_1 W (↑ᵣ main_arg5) = W (↑ᵣ main_arg5)
    ∧ after hostOps1_1 W (↑ᵣ main_arg6) = W (↑ᵣ main_arg6) ∧ after hostOps1_1 W (↑ᵣ main_arg7) = W (↑ᵣ main_arg7)
    ∧ after hostOps1_1 W (↑ᵣ main_arg8) = W (↑ᵣ main_arg8) := by
  refine ⟨?_, ?_, ?_, ?_, ?_, ?_, ?_, ?_⟩ <;> after_results_simp

theorem s12_v19 : after hostOps1_2 W (↑ᵣ main_v19) = transpose S128x128 [1, 0] (W (↑ᵣ main_arg5)) transposes_S128x128_S128x128_1_0 := by
  after_results_simp
theorem s12_v20 : after hostOps1_2 W (↑ᵣ main_v20) = shapeCast S131072x1 (W (↑ᵣ main_v18)) shapeCasts_S131072_S131072x1 := by
  after_results_simp; rfl

theorem s12_keep : after hostOps1_2 W (↑ᵣ main_v3) = W (↑ᵣ main_v3) ∧ after hostOps1_2 W (↑ᵣ main_v7) = W (↑ᵣ main_v7)
    ∧ after hostOps1_2 W (↑ᵣ main_v10) = W (↑ᵣ main_v10) ∧ after hostOps1_2 W (↑ᵣ main_v18) = W (↑ᵣ main_v18)
    ∧ after hostOps1_2 W (↑ᵣ main_arg0) = W (↑ᵣ main_arg0)
    ∧ after hostOps1_2 W (↑ᵣ main_arg6) = W (↑ᵣ main_arg6) ∧ after hostOps1_2 W (↑ᵣ main_arg7) = W (↑ᵣ main_arg7)
    ∧ after hostOps1_2 W (↑ᵣ main_arg8) = W (↑ᵣ main_arg8) := by
  refine ⟨?_, ?_, ?_, ?_, ?_, ?_, ?_, ?_⟩ <;> after_results_simp

/-! ## Between the second and the third kernel -/

theorem s2_v31 : after hostOps2 W (↑ᵣ main_v31) = passEdges (W (↑ᵣ main_v21)) (W (↑ᵣ main_v7)) (W (↑ᵣ main_v10)) := by
  unfold passEdges asCol wrapNode
  after_results_simp
  try rfl
theorem s2_v32 : after hostOps2 W (↑ᵣ main_v32) = transpose S128x128 [1, 0] (W (↑ᵣ main_arg7)) transposes_S128x128_S128x128_1_0 := by
  after_results_simp
theorem s2_v33 : after hostOps2 W (↑ᵣ main_v33) = shapeCast S131072x1 (W (↑ᵣ main_v18)) shapeCasts_S131072_S131072x1 := by
  after_results_simp; rfl
theorem s2_v34 : after hostOps2 W (↑ᵣ main_v34) = shapeCast S1x128 (W (↑ᵣ main_arg6)) shapeCasts_S128_S1x128 := by
  after_results_simp; rfl

theorem s2_keep : after hostOps2 W (↑ᵣ main_v7) = W (↑ᵣ main_v7) ∧ after hostOps2 W (↑ᵣ main_v10) = W (↑ᵣ main_v10)
    ∧ after hostOps2 W (↑ᵣ main_v18) = W (↑ᵣ main_v18)
    ∧ after hostOps2 W (↑ᵣ main_arg0) = W (↑ᵣ main_arg0) ∧ after hostOps2 W (↑ᵣ main_arg8) = W (↑ᵣ main_arg8) := by
  refine ⟨?_, ?_, ?_, ?_, ?_⟩ <;> after_results_simp

/-! ## Between the third and the fourth kernel -/

theorem s3_v45 : after hostOps3 W (↑ᵣ main_v45) = passEdges (W (↑ᵣ main_v35)) (W (↑ᵣ main_v7)) (W (↑ᵣ main_v10)) := by
  unfold passEdges asCol wrapNode
  after_results_simp
  try rfl
theorem s3_v46 : after hostOps3 W (↑ᵣ main_v46) = shapeCast S131072x1 (W (↑ᵣ main_v18)) shapeCasts_S131072_S131072x1 := by
  after_results_simp; rfl
theorem s3_v47 : after hostOps3 W (↑ᵣ main_v47) = shapeCast S1x128 (W (↑ᵣ main_arg8)) shapeCasts_S128_S1x128 := by
  after_results_simp; rfl
theorem s3_keep : after hostOps3 W (↑ᵣ main_arg0) = W (↑ᵣ main_arg0) := by
  after_results_simp

/-! ## After the fourth kernel -/

theorem s4_v49 : after hostOps4 W (↑ᵣ main_v49) = shapeCast S64x2048x128 (W (↑ᵣ main_v48)) shapeCasts_S131072x128_S64x2048x128 := by
  after_results_simp; rfl
theorem s4_v50 : after hostOps4 W (↑ᵣ main_v50) = shapeCast S64x2048 (W (↑ᵣ main_arg0)) shapeCasts_S131072_S64x2048 := by
  after_results_simp; rfl
theorem s4_v51 : after hostOps4 W (↑ᵣ main_v51) = broadcastInDim S64x2048 ![] bcast_S_S64x2048 (constantI S_ 1 1#1) := by
  after_results_simp
theorem s4_v53 : after hostOps4 W (↑ᵣ main_v53) = broadcastInDim S64x2048 ![1] bcast_S2048_S64x2048_1 (iotaInDim S2048 32 0) := by
  after_results_simp

end Cert.Conv.K

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«419247_j38972533244081_2_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.ConvSpec.lean ====
/-
  Scaling the rows of a matrix of extended reals.

  Row i of a matrix multiplied by the i-th entry of a vector (scaleRows), or by entry (i, 0) of a one-column matrix
  (scaleCol): the two spellings of one function, the second being how a kernel receives the vector (as a column that
  it broadcasts across each row). Like the matrix product, a bias row and the positive part, row scaling is row-local:
  row p of the result depends on row p of the operands only.
-/
import proofs.«419247_j38972533244081_2_alg».proof.Proof.LibDenseForms

noncomputable section

namespace Cert.Conv

open Idealize.ShloMosaic Idealize.ShloMosaic.ValueIdx DenseRows

/-- Row i of Z multiplied by entry i of the vector q. -/
def scaleRows {n f : Nat} (Z : Mat n f) (q : Col n) : Mat n f := fun i => Z i * q (ix1 (i 0))

theorem scaleRows_apply {n f : Nat} (Z : Mat n f) (q : Col n) (r : Fin n) (c : Fin f) :
    scaleRows Z q (ix2 r c) = Z (ix2 r c) * q (ix1 r) := rfl

/-- Row i of Z multiplied by entry (i, 0) of the one-column matrix v. -/
def scaleCol {n f : Nat} (Z : Mat n f) (v : Mat n 1) : Mat n f := fun i => Z i * v (ix2 (i 0) (0 : Fin 1))

theorem scaleCol_apply {n f : Nat} (Z : Mat n f) (v : Mat n 1) (r : Fin n) (c : Fin f) :
    scaleCol Z v (ix2 r c) = Z (ix2 r c) * v (ix2 r (0 : Fin 1)) := rfl

/-- Row p of X being row P of A and entry p of the column u being entry P of the column v, row p of X scaled by u is
    row P of A scaled by v. -/
theorem scaleCol_rows {m M f : Nat} (X : Mat m f) (A : Mat M f) (u : Mat m 1) (v : Mat M 1) (p : Fin m) (P : Fin M)
    (h : ∀ c, X (ix2 p c) = A (ix2 P c)) (hv : u (ix2 p (0 : Fin 1)) = v (ix2 P (0 : Fin 1))) (q : Fin f) :
    scaleCol X u (ix2 p q) = scaleCol A v (ix2 P q) := by
  rw [scaleCol_apply, scaleCol_apply, h q, hv]

/-- The vector unit's spelling: a one-column value broadcast across the rows and multiplied in. -/
theorem scaleCol_vector_form {m n : Nat} (Z : Mat m n) (v : Mat m 1)
    (hb : (⟨2, ![m, 1]⟩ : Shape).Broadcasts ⟨2, ![m, n]⟩) :
    mulf Z (broadcastTo (⟨2, ![m, n]⟩ : Shape) v hb) = scaleCol Z v := by
  funext i
  obtain ⟨p, q, rfl⟩ : ∃ (p : Fin m) (q : Fin n), i = ix2 p q := ⟨i 0, i 1, eq_ix2 i⟩
  show Z (ix2 p q) * broadcastTo (⟨2, ![m, n]⟩ : Shape) v hb (ix2 p q) = Z (ix2 p q) * v (ix2 p (0 : Fin 1))
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]

/-- A vector reshaped to a column scales the rows as the vector does. -/
theorem scaleCol_shapeCast {n f : Nat} (Z : Mat n f) (q : Col n) (h : (⟨1, ![n]⟩ : Shape).ShapeCasts ⟨2, ![n, 1]⟩) :
    scaleCol Z (shapeCast (⟨2, ![n, 1]⟩ : Shape) q h) = scaleRows Z q := by
  funext i
  obtain ⟨r, c, rfl⟩ : ∃ (r : Fin n) (c : Fin f), i = ix2 r c := ⟨i 0, i 1, eq_ix2 i⟩
  rw [scaleCol_apply, scaleRows_apply]
  refine congrArg (Z (ix2 r c) * ·) ?_
  exact shapeCast_apply q h _ (ix1 r) (by
    rw [Shape.rowMajor_val_one, Shape.rowMajor_val_two]
    show r.val = r.val * 1 + 0
    omega)

end Cert.Conv

end
-- ==== Proof.KernelSpec.lean ====
/-
  The kernel's computation as one function of the nine argument arrays.

  tokens a0, edges a1, table a2, projection weights a3 and bias a4, first convolution's weights a5 and bias a6, second
  convolution's weights a7 and bias a8. The node features are the table's rows at the tokens times the transposed
  projection weights plus the bias row. With q the inverse square roots of the degrees, a convolution of features X
  with weights w and bias b is: Y = (X · wᵀ) with row i scaled by q[i]; A = the rows of Y gathered at the edges' sources
  and added up at their destinations; the result A with row i scaled by q[i], plus b. The first convolution's result
  goes through the positive part into the second.
-/
import proofs.«419247_j38972533244081_2_alg».proof.Proof.KernelHost
import proofs.«419247_j38972533244081_2_alg».proof.Proof.ConvSpec

noncomputable section

namespace Cert.Conv.K

open Idealize.ShloMosaic Idealize.ShloMosaic.TcCoe
open Cert.KernelIdeal Cert.KernelIdeal.Gen DenseRows Cert.Conv

variable (a0 : IVec S131072 32) (a1 : IVec S2x524288 32) (a2 : FVec Ideal S32000x256 .f32) (a3 : FVec Ideal S128x256 .f32)
  (a4 : FVec Ideal S128 .f32) (a5 : FVec Ideal S128x128 .f32) (a6 : FVec Ideal S128 .f32) (a7 : FVec Ideal S128x128 .f32)
  (a8 : FVec Ideal S128 .f32)

/-- A vector as a one-row matrix. -/
def rowOf128 (b : FVec Ideal S128 .f32) : Mat 1 128 := shapeCast S1x128 b shapeCasts_S128_S1x128
/-- A [128 × 128] matrix transposed. -/
def tr128 (w : FVec Ideal S128x128 .f32) : Mat 128 128 := transpose S128x128 [1, 0] w transposes_S128x128_S128x128_1_0

/-- The projected node features. -/
def feat : Mat 131072 128 :=
  addRow (mm (takeRows (F := Ideal) a0 a2) (transpose S256x128 [1, 0] a3 transposes_S128x256_S256x128_1_0))
    (shapeCast S1x128 a4 shapeCasts_S128_S1x128)
/-- The inverse square roots of the degrees, as a vector and as a column. -/
def dinv : Col 131072 := invSqrt (F := Ideal) (degree (F := Ideal) (dstWords a1))
def dcol : Mat 131072 1 := shapeCast S131072x1 (dinv a1) shapeCasts_S131072_S131072x1
/-- First convolution before the edges: the features times the transposed weights, row i scaled by q[i]. -/
def lin1 : Mat 131072 128 := scaleCol (mm (feat a0 a2 a3 a4) (tr128 a5)) (dcol a1)
def agg1 : Mat 131072 128 := passEdges (F := Ideal) (lin1 a0 a1 a2 a3 a4 a5) (srcWords a1) (dstWords a1)
/-- Second convolution before the edges. -/
def lin2 : Mat 131072 128 :=
  scaleCol (mm (relu (addRow (scaleCol (agg1 a0 a1 a2 a3 a4 a5) (dcol a1)) (rowOf128 a6))) (tr128 a7)) (dcol a1)
def agg2 : Mat 131072 128 := passEdges (F := Ideal) (lin2 a0 a1 a2 a3 a4 a5 a6 a7) (srcWords a1) (dstWords a1)
/-- The second convolution's result. -/
def out2 : Mat 131072 128 := addRow (scaleCol (agg2 a0 a1 a2 a3 a4 a5 a6 a7) (dcol a1)) (rowOf128 a8)

end Cert.Conv.K

end
-- ==== Proof.RegionProj.lean ====
/-
  The first two regions of the kernel program, each as one whole-array function.

  Region 0 multiplies row blocks of a [131072 x 256] matrix by a whole [256 x 128] matrix and adds a one-row bias;
  region 1 multiplies row blocks of a [131072 x 128] matrix by a whole [128 x 128] matrix and scales each row by
  the matching entry of a one-column matrix. Both operations are row-local, so a block of rows of the result,
  computed from the same block of rows of the operand, is that block of rows of the result computed from the whole
  operand; the blocks' row ranges tile the rows, so the output array ends as the whole-array function.
-/
import proofs.«419247_j38972533244081_2_alg».proof.Proof.Gen.KernelIdeal.Frame
import proofs.«419247_j38972533244081_2_alg».proof.Proof.ConvSpec
import Idealize.ShloMosaic.Lib.Pipeline.Value

set_option maxRecDepth 16384

noncomputable section

open Idealize.ShloMosaic Idealize.ShloMosaic.TcCoe Idealize.SL.Sem Idealize.ShloMosaic.ValueIdx DenseRows
open Cert.KernelIdeal Cert.KernelIdeal.Gen
open Idealize.ShloMosaic.Pipeline (Dat)

namespace Cert.Conv

/-- A block stored or loaded whole sits at offset zero on both axes. -/
theorem zero_offsets : (![0, 0] : Fin 2 → Nat) = fun _ => 0 := funext fun a => by fin_cases a <;> rfl

/-! ## Region 0: rows of A · B plus the bias row -/

/-- The contraction of the [8192 x 256] by [256 x 128] product is the plain one: axis 1 against axis 0. -/
theorem dims0 : dot_S8192x256_S256x128_S8192x128_1_0_0_1_n_n = DotDims.plain 8192 256 128 := rfl

/-- What a point stores, from the blocks it loaded: the product of the row block by the whole right factor, plus
    the bias row. -/
theorem block0_value (x0 : Vec Ideal S8192x256 .f32) (x1 : Vec Ideal S256x128 .f32) (x2 : Vec Ideal S1x128 .f32) :
    k0_pay1 (F := Ideal) x0 x1 x2 = addRow (mm (x0 : Mat 8192 256) (x1 : Mat 256 128)) (x2 : Mat 1 128) := by
  unfold k0_pay1
  dsimp only
  rw [shapeCast_self, shapeCast_self, shapeCast_self, dims0]
  exact (congrArg (fun z => addf z (broadcastTo S8192x128 x2 broadcasts_S1x128_S8192x128))
    (matmul_plain_eq_mm none x0 x1)).trans (bias_vector_form _ _ _)

/-- The index maps over the 16 points: the row-blocked windows (0 and 3) are at row block t, the whole windows
    (1 and 2) at block 0. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of a row-blocked [131072 x 256] operand holds rows 8192 t + p of the array. -/
theorem rows_in0 (V : (c : Dev nD) → (b : Ref sig .tc) → Buf (Elt Ideal) ((c : Thread nD τ).loc b)) (c : Dev nD)
    (t : Fin cfg0.N) (p : Fin 8192) (k : Fin 256) (P : Fin 131072) (hP : P.val = t.val * 8192 + p.val) :
    (iblk0 V c 0 t : Vec Ideal S8192x256 .f32) (ix2 p k) = (V c main_v0 : Mat 131072 256) (ix2 P k) := by
  obtain ⟨e00, e01, -⟩ := index_facts0 t
  show V c main_v0 (((cfg0.win 0).blk t).view.emb (ix2 p k)) = V c main_v0 (ix2 P k)
  refine congrArg (V c main_v0) (funext fun a => Fin.ext ?_)
  match a with
  | ⟨0, _⟩ => show win0_0.index t (0 : Fin 2) * 8192 + 1 * p.val = P.val; rw [e00, hP]; omega
  | ⟨1, _⟩ => show win0_0.index t (1 : Fin 2) * 256 + 1 * k.val = k.val; rw [e01]; omega

/-- The whole [256 x 128] window's block is the array at every point. -/
theorem whole_in0_1 (V : (c : Dev nD) → (b : Ref sig .tc) → Buf (Elt Ideal) ((c : Thread nD τ).loc b)) (c : Dev nD)
    (t : Fin cfg0.N) : (iblk0 V c 1 t : Vec Ideal S256x128 .f32) = (V c main_v1 : Mat 256 128) := by
  obtain ⟨-, -, e10, e11, -⟩ := index_facts0 t
  funext y
  show V c main_v1 (((cfg0.win 1).blk t).view.emb y) = V c main_v1 y
  refine congrArg (V c main_v1) (funext fun a => Fin.ext ?_)
  match a with
  | ⟨0, _⟩ => show win0_1.index t (0 : Fin 2) * 256 + 1 * (y 0).val = (y 0).val; rw [e10]; omega
  | ⟨1, _⟩ => show win0_1.index t (1 : Fin 2) * 128 + 1 * (y 1).val = (y 1).val; rw [e11]; omega

/-- The whole [1 x 128] window's block is the array at every point. -/
theorem whole_in0_2 (V : (c : Dev nD) → (b : Ref sig .tc) → Buf (Elt Ideal) ((c : Thread nD τ).loc b)) (c : Dev nD)
    (t : Fin cfg0.N) : (iblk0 V c 2 t : Vec Ideal S1x128 .f32) = (V c main_v2 : Mat 1 128) := by
  obtain ⟨-, -, -, -, e20, e21, -⟩ := index_facts0 t
  funext y
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

/-- Entry (p, q) of point t's output block is entry (8192 t + p, q) of the output array. -/
theorem rows_out0 (t : Fin cfg0.N) (p : Fin 8192) (q : Fin 128) (P : Fin 131072) (hP : P.val = t.val * 8192 + p.val) :
    ((cfg0.win 3).blk t).view.emb (ix2 p q) = (ix2 P q : S131072x128.Idx) := by
  obtain ⟨-, -, -, -, -, -, e30, e31⟩ := index_facts0 t
  refine funext fun a => Fin.ext ?_
  match a with
  | ⟨0, _⟩ => show win0_3.index t (0 : Fin 2) * 8192 + 1 * p.val = P.val; rw [e30, hP]; omega
  | ⟨1, _⟩ => show win0_3.index t (1 : Fin 2) * 128 + 1 * q.val = q.val; rw [e31]; omega

/-- What point t writes back is block t of the whole-array function of the arrays as the region finds them. -/
theorem flushed0 (V : (c : Dev nD) → (b : Ref sig .tc) → Buf (Elt Ideal) ((c : Thread nD τ).loc b)) (c : Dev nD)
    (t : Fin cfg0.N) :
    (dat0 (F := Ideal) V c).flushed 3 t = ((cfg0.win 3).blk t).view.read (Elt Ideal)
      (addRow (mm (V c main_v0 : Mat 131072 256) (V c main_v1 : Mat 256 128)) (V c main_v2 : Mat 1 128)) := by
  show (cfg0.win 3).cut (grid0.coords t) ((dat0 V c).after 3 t) = _
  rw [after0_3]
  unfold out0_3
  rw [View.canon_unit_zero zero_offsets]
  simp only [View.ld_unit_zero (S := S8192x256) zero_offsets, View.ld_unit_zero (S := S256x128) zero_offsets,
    View.ld_unit_zero (S := S1x128) zero_offsets]
  rw [block0_value, whole_in0_1, whole_in0_2]
  have ht : t.val < 16 := lt_of_lt_of_eq t.isLt (show cfg0.N = 16 from N_0)
  refine funext fun (j : S8192x128.Idx) => ?_
  obtain ⟨p, q, rfl⟩ : ∃ (p : Fin 8192) (q : Fin 128), j = ix2 p q := ⟨j 0, j 1, eq_ix2 j⟩
  have hp : p.val < 8192 := p.isLt
  show addRow (mm (iblk0 V c 0 t : Mat 8192 256) (V c main_v1 : Mat 256 128)) (V c main_v2 : Mat 1 128) (ix2 p q)
    = addRow (mm (V c main_v0 : Mat 131072 256) (V c main_v1 : Mat 256 128)) (V c main_v2 : Mat 1 128)
        (((cfg0.win 3).blk t).view.emb (ix2 p q))
  rw [rows_out0 t p q ⟨t.val * 8192 + p.val, by omega⟩ rfl]
  exact addRow_rows _ _ _ p _ (fun c' => mm_rows _ _ _ p _ (fun k => rows_in0 V c t p k _ rfl) c') q

/-- An index of the output array is in point t's block iff each coordinate is in the block's range on its axis. -/
theorem mem_block0 (t : Fin cfg0.N) (i : S131072x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v3).slice (win0_3.rect t)).set ↔ _
  rw [View.set_slice_whole, Rect.mem_set_unit]
  exact Iff.rfl

/-- Row r of the output array lies in the block of point r / 8192. -/
theorem cover0 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 16 := N_0
  obtain ⟨t, ht⟩ : ∃ t : Fin cfg0.N, t.val = (i 0).val / 8192 := ⟨⟨(i 0).val / 8192, by rw [hN]; omega⟩, rfl⟩
  obtain ⟨-, -, -, -, -, -, e30, e31⟩ := index_facts0 t
  refine ⟨t, flush0_3 t, ?_⟩
  rw [mem_block0]
  intro a
  match a with
  | ⟨0, _⟩ =>
    show win0_3.index t (0 : Fin 2) * 8192 ≤ (i 0).val ∧ (i 0).val < win0_3.index t (0 : Fin 2) * 8192 + 8192
    rw [e30, ht]; omega
  | ⟨1, _⟩ =>
    show win0_3.index t (1 : Fin 2) * 128 ≤ (i 1).val ∧ (i 1).val < win0_3.index t (1 : Fin 2) * 128 + 128
    rw [e31]; omega

/-- REGION 0: the output array after the run is A · B plus the bias row, of the arrays as the region finds them. -/
theorem region0_value (V : (c : Dev nD) → (b : Ref sig .tc) → Buf (Elt Ideal) ((c : Thread nD τ).loc b)) (c : Dev nD) :
    (dat0 (F := Ideal) V c).arrAt 3 cfg0.N
      = addRow (mm (V c main_v0 : Mat 131072 256) (V c main_v1 : Mat 256 128)) (V c main_v2 : Mat 1 128) :=
  (dat0 (F := Ideal) V c).arrAt_eq_of_cover 3 _ (fun t _ => flushed0 V c t) cover0

/-! ## Region 1: rows of A · B, each scaled by its entry of a column -/

/-- The contraction of the [16384 x 128] by [128 x 128] product is the plain one: axis 1 against axis 0. -/
theorem dims1 : dot_S16384x128_S128x128_S16384x128_1_0_0_1_n_n = DotDims.plain 16384 128 128 := rfl

/-- What a point stores, from the blocks it loaded: the product of the row block by the whole right factor, each
    row multiplied by its entry of the column block. -/
theorem block1_value (x0 : Vec Ideal S16384x128 .f32) (x1 : Vec Ideal S128x128 .f32) (x2 : Vec Ideal S16384x1 .f32) :
    k1_pay1 (F := Ideal) x0 x1 x2 = scaleCol (mm (x0 : Mat 16384 128) (x1 : Mat 128 128)) (x2 : Mat 16384 1) := by
  unfold k1_pay1
  dsimp only
  rw [shapeCast_self, shapeCast_self, shapeCast_self, dims1]
  exact (congrArg (fun z => mulf z (broadcastTo S16384x128 x2 broadcasts_S16384x1_S16384x128))
    (matmul_plain_eq_mm none x0 x1)).trans (scaleCol_vector_form _ _ _)

/-- The index maps over the 8 points: the row-blocked windows (0, 2 and 3) are at row block t, the whole window
    (1) at block 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Point t's block of the row-blocked [131072 x 128] operand holds rows 16384 t + p of the array. -/
theorem rows_in1_0 (V : (c : Dev nD) → (b : Ref sig .tc) → Buf (Elt Ideal) ((c : Thread nD τ).loc b)) (c : Dev nD)
    (t : Fin cfg1.N) (p : Fin 16384) (k : Fin 128) (P : Fin 131072) (hP : P.val = t.val * 16384 + p.val) :
    (iblk1 V c 0 t : Vec Ideal S16384x128 .f32) (ix2 p k) = (V c main_v3 : Mat 131072 128) (ix2 P k) := by
  obtain ⟨e00, e01, -⟩ := index_facts1 t
  show V c main_v3 (((cfg1.win 0).blk t).view.emb (ix2 p k)) = V c main_v3 (ix2 P k)
  refine congrArg (V c main_v3) (funext fun a => Fin.ext ?_)
  match a with
  | ⟨0, _⟩ => show win1_0.index t (0 : Fin 2) * 16384 + 1 * p.val = P.val; rw [e00, hP]; omega
  | ⟨1, _⟩ => show win1_0.index t (1 : Fin 2) * 128 + 1 * k.val = k.val; rw [e01]; omega

/-- The whole [128 x 128] window's block is the array at every point. -/
theorem whole_in1_1 (V : (c : Dev nD) → (b : Ref sig .tc) → Buf (Elt Ideal) ((c : Thread nD τ).loc b)) (c : Dev nD)
    (t : Fin cfg1.N) : (iblk1 V c 1 t : Vec Ideal S128x128 .f32) = (V c main_v19 : Mat 128 128) := by
  obtain ⟨-, -, e10, e11, -⟩ := index_facts1 t
  funext y
  show V c main_v19 (((cfg1.win 1).blk t).view.emb y) = V c main_v19 y
  refine congrArg (V c main_v19) (funext fun a => Fin.ext ?_)
  match a with
  | ⟨0, _⟩ => show win1_1.index t (0 : Fin 2) * 128 + 1 * (y 0).val = (y 0).val; rw [e10]; omega
  | ⟨1, _⟩ => show win1_1.index t (1 : Fin 2) * 128 + 1 * (y 1).val = (y 1).val; rw [e11]; omega

/-- Point t's block of the row-blocked [131072 x 1] column holds entries 16384 t + p of the array. -/
theorem rows_in1_2 (V : (c : Dev nD) → (b : Ref sig .tc) → Buf (Elt Ideal) ((c : Thread nD τ).loc b)) (c : Dev nD)
    (t : Fin cfg1.N) (p : Fin 16384) (P : Fin 131072) (hP : P.val = t.val * 16384 + p.val) :
    (iblk1 V c 2 t : Vec Ideal S16384x1 .f32) (ix2 p (0 : Fin 1))
      = (V c main_v20 : Mat 131072 1) (ix2 P (0 : Fin 1)) := by
  obtain ⟨-, -, -, -, e20, e21, -⟩ := index_facts1 t
  show V c main_v20 (((cfg1.win 2).blk t).view.emb (ix2 p (0 : Fin 1))) = V c main_v20 (ix2 P (0 : Fin 1))
  refine congrArg (V c main_v20) (funext fun a => Fin.ext ?_)
  match a with
  | ⟨0, _⟩ => show win1_2.index t (0 : Fin 2) * 16384 + 1 * p.val = P.val; rw [e20, hP]; omega
  | ⟨1, _⟩ => show win1_2.index t (1 : Fin 2) * 1 + 1 * 0 = 0; rw [e21]

/-- Entry (p, q) of point t's output block is entry (16384 t + p, q) of the output array. -/
theorem rows_out1 (t : Fin cfg1.N) (p : Fin 16384) (q : Fin 128) (P : Fin 131072)
    (hP : P.val = t.val * 16384 + p.val) :
    ((cfg1.win 3).blk t).view.emb (ix2 p q) = (ix2 P q : S131072x128.Idx) := by
  obtain ⟨-, -, -, -, -, -, e30, e31⟩ := index_facts1 t
  refine funext fun a => Fin.ext ?_
  match a with
  | ⟨0, _⟩ => show win1_3.index t (0 : Fin 2) * 16384 + 1 * p.val = P.val; rw [e30, hP]; omega
  | ⟨1, _⟩ => show win1_3.index t (1 : Fin 2) * 128 + 1 * q.val = q.val; rw [e31]; omega

/-- What point t writes back is block t of the whole-array function of the arrays as the region finds them. -/
theorem flushed1 (V : (c : Dev nD) → (b : Ref sig .tc) → Buf (Elt Ideal) ((c : Thread nD τ).loc b)) (c : Dev nD)
    (t : Fin cfg1.N) :
    (dat1 (F := Ideal) V c).flushed 3 t = ((cfg1.win 3).blk t).view.read (Elt Ideal)
      (scaleCol (mm (V c main_v3 : Mat 131072 128) (V c main_v19 : Mat 128 128)) (V c main_v20 : Mat 131072 1)) := by
  show (cfg1.win 3).cut (grid1.coords t) ((dat1 V c).after 3 t) = _
  rw [after1_3]
  unfold out1_3
  rw [View.canon_unit_zero zero_offsets]
  simp only [View.ld_unit_zero (S := S16384x128) zero_offsets, View.ld_unit_zero (S := S128x128) zero_offsets,
    View.ld_unit_zero (S := S16384x1) zero_offsets]
  rw [block1_value, whole_in1_1]
  have ht : t.val < 8 := lt_of_lt_of_eq t.isLt (show cfg1.N = 8 from N_1)
  refine funext fun (j : S16384x128.Idx) => ?_
  obtain ⟨p, q, rfl⟩ : ∃ (p : Fin 16384) (q : Fin 128), j = ix2 p q := ⟨j 0, j 1, eq_ix2 j⟩
  have hp : p.val < 16384 := p.isLt
  show scaleCol (mm (iblk1 V c 0 t : Mat 16384 128) (V c main_v19 : Mat 128 128)) (iblk1 V c 2 t : Mat 16384 1)
      (ix2 p q)
    = scaleCol (mm (V c main_v3 : Mat 131072 128) (V c main_v19 : Mat 128 128)) (V c main_v20 : Mat 131072 1)
        (((cfg1.win 3).blk t).view.emb (ix2 p q))
  rw [rows_out1 t p q ⟨t.val * 16384 + p.val, by omega⟩ rfl]
  exact scaleCol_rows _ _ _ _ p _ (fun c' => mm_rows _ _ _ p _ (fun k => rows_in1_0 V c t p k _ rfl) c')
    (rows_in1_2 V c t p _ rfl) q

/-- An index of the output array is in point t's block iff each coordinate is in the block's range on its axis. -/
theorem mem_block1 (t : Fin cfg1.N) (i : S131072x128.Idx) :
    i ∈ ((cfg1.win 3).blk t).view.set ↔ ∀ a : Fin 2, win1_3.index t a * S16384x128.size a ≤ (i a).val
      ∧ (i a).val < win1_3.index t a * S16384x128.size a + S16384x128.size a := by
  show i ∈ ((View.whole main_v21).slice (win1_3.rect t)).set ↔ _
  rw [View.set_slice_whole, Rect.mem_set_unit]
  exact Iff.rfl

/-- Row r of the output array lies in the block of point r / 16384. -/
theorem cover1 (i : S131072x128.Idx) :
    ∃ t : Fin cfg1.N, (cfg1.win 3).flush t = true ∧ i ∈ ((cfg1.win 3).blk t).view.set := by
  have hi0 : (i 0).val < 131072 := (i 0).isLt
  have hi1 : (i 1).val < 128 := (i 1).isLt
  have hN : cfg1.N = 8 := N_1
  obtain ⟨t, ht⟩ : ∃ t : Fin cfg1.N, t.val = (i 0).val / 16384 := ⟨⟨(i 0).val / 16384, by rw [hN]; omega⟩, rfl⟩
  obtain ⟨-, -, -, -, -, -, e30, e31⟩ := index_facts1 t
  refine ⟨t, flush1_3 t, ?_⟩
  rw [mem_block1]
  intro a
  match a with
  | ⟨0, _⟩ =>
    show win1_3.index t (0 : Fin 2) * 16384 ≤ (i 0).val ∧ (i 0).val < win1_3.index t (0 : Fin 2) * 16384 + 16384
    rw [e30, ht]; omega
  | ⟨1, _⟩ =>
    show win1_3.index t (1 : Fin 2) * 128 ≤ (i 1).val ∧ (i 1).val < win1_3.index t (1 : Fin 2) * 128 + 128
    rw [e31]; omega

/-- REGION 1: the output array after the run is A · B with each row scaled by its entry of the column, of the arrays
    as the region finds them. -/
theorem region1_value (V : (c : Dev nD) → (b : Ref sig .tc) → Buf (Elt Ideal) ((c : Thread nD τ).loc b)) (c : Dev nD) :
    (dat1 (F := Ideal) V c).arrAt 3 cfg1.N
      = scaleCol (mm (V c main_v3 : Mat 131072 128) (V c main_v19 : Mat 128 128)) (V c main_v20 : Mat 131072 1) :=
  (dat1 (F := Ideal) V c).arrAt_eq_of_cover 3 _ (fun t _ => flushed1 V c t) cover1

end Cert.Conv

end
-- ==== Proof.RegionConv.lean ====
/-
  Regions 2 and 3 of the kernel, each as one function of whole arrays.

  Both regions sweep a 131072-row array in eight bands of 16384 rows. At each band the body computes, from the band
  of the row-blocked operands and from the operands it holds whole, a band of rows of the result; the operations
  involved (scaling row i by entry i of a column, adding a bias row, the positive part, a matrix product with a
  matrix held whole) are row-local, so the band computed from the operands' bands is the band of the result
  computed from the whole operands. The eight bands tile the result array, hence after the sweep the array holds

    region 3:  addRow (scaleCol X d) b
    region 2:  scaleCol (mm (relu (addRow (scaleCol X d) b)) W) d

  at every index, for any contents X, d, b, W of the operand arrays when the region is entered.
-/
import proofs.«419247_j38972533244081_2_alg».proof.Proof.Gen.KernelIdeal.Frame
import proofs.«419247_j38972533244081_2_alg».proof.Proof.ConvSpec
import Idealize.ShloMosaic.Lib.Pipeline.Value

set_option maxRecDepth 16384
noncomputable section

namespace Cert.Conv.Bands

open Idealize.ShloMosaic Idealize.ShloMosaic.TcCoe Idealize.SL.Sem Idealize.ShloMosaic.ValueIdx DenseRows Cert.KernelIdeal Cert.KernelIdeal.Gen
open Idealize.ShloMosaic.Pipeline (Dat)

/-- The offset of an access to a whole staging block. -/
theorem zero_offsets : (![0, 0] : Fin 2 → Nat) = fun _ => 0 := funext fun a => by fin_cases a <;> rfl

/-! ## What a body computes from its blocks -/

/-- Region 3's body: the band's rows scaled by the band of the column, plus the bias row. -/
theorem biasScale_block (x0 : Vec Ideal S16384x128 .f32) (x1 : Vec Ideal S16384x1 .f32) (x2 : Vec Ideal S1x128 .f32) :
    k3_pay1 (F := Ideal) x0 x1 x2 = addRow (scaleCol x0 x1) x2 := by
  unfold k3_pay1
  show (addf (mulf (shapeCast S16384x128 x0 _) (broadcastTo S16384x128 (shapeCast S16384x1 x1 _) _))
    (broadcastTo S16384x128 (shapeCast S1x128 x2 _) _) : FVec Ideal S16384x128 .f32) = _
  rw [shapeCast_self, shapeCast_self, shapeCast_self]
  rw [scaleCol_vector_form, bias_vector_form]

/-- The product's dimension record is the plain one: rows by columns, contracting the inner axis. -/
theorem plain_dims : dot_S16384x128_S128x128_S16384x128_1_0_0_1_n_n = DotDims.plain 16384 128 128 := rfl

/-- Region 2's body, its two reads of the column's band being one value: scale, bias, positive part, product
    with the whole matrix, scale again. -/
theorem combined_block (x0 : Vec Ideal S16384x128 .f32) (x1 : Vec Ideal S16384x1 .f32) (x2 : Vec Ideal S1x128 .f32)
    (x3 : Vec Ideal S128x128 .f32) :
    k2_pay1 (F := Ideal) x0 x1 x2 x3 x1 = scaleCol (mm (relu (addRow (scaleCol x0 x1) x2)) x3) x1 := by
  unfold k2_pay1
  show mulf (matmul dot_S16384x128_S128x128_S16384x128_1_0_0_1_n_n none
      (maximumf (addf (mulf (shapeCast S16384x128 x0 _) (broadcastTo S16384x128 (shapeCast S16384x1 x1 _) _))
          (broadcastTo S16384x128 (shapeCast S1x128 x2 _) _))
        (broadcast S16384x128 (Scalar.ofBits (F := Ideal) .f32 0x00000000#32)))
      (shapeCast S128x128 x3 _) (constant (F := Ideal) S16384x128 .f32 0x00000000#32))
    (broadcastTo S16384x128 (shapeCast S16384x1 x1 _) _) = _
  rw [shapeCast_self, shapeCast_self, shapeCast_self, shapeCast_self]
  rw [scaleCol_vector_form, bias_vector_form, relu_vector_form, plain_dims, matmul_plain_eq_mm, scaleCol_vector_form]

variable (V : (c : Dev nD) → (b : Ref sig .tc) → Buf (Elt Ideal) ((c : Thread nD τ).loc b))

/-! ## Region 2 -/

/-- The block indices of region 2's windows at each of the eight points: the row-blocked windows sit at band t,
    column block 0; the bias row's and the square matrix's windows stay at block (0, 0). -/
theorem band_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every band is some point's. -/
theorem band_onto2 : ∀ b : Fin 8, ∃ t : Fin cfg2.N, t.val = b.val :=
  (by decide +kernel : ∀ b : Fin 8, ∃ t : Fin grid2.N, t.val = b.val)

/-- Row p of the matrix operand's band at point t is row t·16384 + p of the array. -/
theorem matrix_band2 (c : Dev nD) (t : Fin cfg2.N) (p : Fin 16384) (P : Fin 131072) (hP : P.val = t.val * 16384 + p.val)
    (q : Fin 128) :
    (iblk2 V c 0 t : Vec Ideal S16384x128 .f32) (ix2 p q) = (V c main_v31 : Mat 131072 128) (ix2 P q) := by
  obtain ⟨e0, e1, -⟩ := band_index2 t
  unfold iblk2
  rw [View.read_apply]
  show V c main_v31 _ = V c main_v31 _
  congr 1
  funext a
  apply Fin.ext
  match a with
  | ⟨0, _⟩ => show win2_0.index t (0 : Fin 2) * 16384 + 1 * p.val = P.val; rw [e0, hP]; omega
  | ⟨1, _⟩ => show win2_0.index t (1 : Fin 2) * 128 + 1 * q.val = q.val; rw [e1]; omega

/-- Entry p of the column operand's band at point t is entry t·16384 + p of the array. -/
theorem column_band2 (c : Dev nD) (t : Fin cfg2.N) (p : Fin 16384) (P : Fin 131072) (hP : P.val = t.val * 16384 + p.val) :
    (iblk2 V c 1 t : Vec Ideal S16384x1 .f32) (ix2 p (0 : Fin 1)) = (V c main_v33 : Mat 131072 1) (ix2 P (0 : Fin 1)) := by
  obtain ⟨-, -, e0, e1, -⟩ := band_index2 t
  unfold iblk2
  rw [View.read_apply]
  show V c main_v33 _ = V c main_v33 _
  congr 1
  funext a
  apply Fin.ext
  match a with
  | ⟨0, _⟩ => show win2_1.index t (0 : Fin 2) * 16384 + 1 * p.val = P.val; rw [e0, hP]; omega
  | ⟨1, _⟩ => show win2_1.index t (1 : Fin 2) * 1 + 1 * 0 = 0; rw [e1]

/-- The bias row's block at any point is the array. -/
theorem bias_whole2 (c : Dev nD) (t : Fin cfg2.N) :
    (iblk2 V c 2 t : Vec Ideal S1x128 .f32) = (V c main_v34 : Mat 1 128) := by
  obtain ⟨-, -, -, -, e0, e1, -⟩ := band_index2 t
  funext y
  unfold iblk2
  rw [View.read_apply]
  show V c main_v34 _ = V c main_v34 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The square matrix's block at any point is the array. -/
theorem square_whole2 (c : Dev nD) (t : Fin cfg2.N) :
    (iblk2 V c 3 t : Vec Ideal S128x128 .f32) = (V c main_v32 : Mat 128 128) := by
  obtain ⟨-, -, -, -, -, -, e0, e1, -⟩ := band_index2 t
  funext y
  unfold iblk2
  rw [View.read_apply]
  show V c main_v32 _ = V c main_v32 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- What point t writes back is band t of the whole-array function. -/
theorem flushed2 (c : Dev nD) (t : Fin cfg2.N) :
    (dat2 (F := Ideal) V c).flushed 4 t
      = ((cfg2.win 4).blk t).view.read (Elt Ideal)
          (scaleCol (mm (relu (addRow (scaleCol (V c main_v31) (V c main_v33)) (V c main_v34))) (V c main_v32)) (V c main_v33)) := by
  show (cfg2.win 4).cut (grid2.coords t) ((dat2 V c).after 4 t) = _
  rw [after2_4]
  unfold out2_4
  rw [View.canon_unit_zero zero_offsets]
  simp only [View.ld_unit_zero (S := S16384x128) zero_offsets, View.ld_unit_zero (S := S16384x1) zero_offsets,
    View.ld_unit_zero (S := S1x128) zero_offsets, View.ld_unit_zero (S := S128x128) zero_offsets]
  rw [combined_block, bias_whole2, square_whole2]
  obtain ⟨-, -, -, -, -, -, -, -, e0, e1⟩ := band_index2 t
  funext j
  obtain ⟨p, q, rfl⟩ : ∃ (p : Fin 16384) (q : Fin 128), j = ix2 p q := ⟨j 0, j 1, eq_ix2 j⟩
  have ht : t.val < 8 := lt_of_lt_of_eq t.isLt N_2
  have hP : t.val * 16384 + p.val < 131072 := by have := p.isLt; omega
  have hemb : ((cfg2.win 4).blk t).view.emb (ix2 p q) = (ix2 ⟨t.val * 16384 + p.val, hP⟩ q : S131072x128.Idx) := by
    funext a
    apply Fin.ext
    match a with
    | ⟨0, _⟩ => show win2_4.index t (0 : Fin 2) * 16384 + 1 * p.val = t.val * 16384 + p.val; rw [e0]; omega
    | ⟨1, _⟩ => show win2_4.index t (1 : Fin 2) * 128 + 1 * q.val = q.val; rw [e1]; omega
  show scaleCol (mm (relu (addRow (scaleCol (iblk2 V c 0 t) (iblk2 V c 1 t)) (V c main_v34))) (V c main_v32)) (iblk2 V c 1 t) (ix2 p q)
    = scaleCol (mm (relu (addRow (scaleCol (V c main_v31) (V c main_v33)) (V c main_v34))) (V c main_v32)) (V c main_v33)
        (((cfg2.win 4).blk t).view.emb (ix2 p q))
  rw [hemb]
  have hcol := column_band2 V c t p ⟨_, hP⟩ rfl
  exact scaleCol_rows _ _ _ _ p ⟨_, hP⟩
    (fun k => mm_rows _ _ _ p ⟨_, hP⟩
      (fun k₁ => relu_rows _ _ p ⟨_, hP⟩
        (fun k₂ => addRow_rows _ _ _ p ⟨_, hP⟩
          (fun k₃ => scaleCol_rows _ _ _ _ p ⟨_, hP⟩ (fun k₄ => matrix_band2 V c t p _ rfl k₄) hcol k₃) k₂) k₁) k)
    hcol q

/-- An index of the result array lies in point t's block iff each coordinate lies in the block's range. -/
theorem mem_band2 (t : Fin cfg2.N) (i : S131072x128.Idx) :
    i ∈ ((cfg2.win 4).blk t).view.set
      ↔ ∀ a : Fin 2, win2_4.index t a * S16384x128.size a ≤ (i a).val
          ∧ (i a).val < win2_4.index t a * S16384x128.size a + S16384x128.size a := by
  show i ∈ ((View.whole main_v35).slice (win2_4.rect t)).set ↔ _
  rw [View.set_slice_whole, Rect.mem_set_unit]
  exact Iff.rfl

/-- The eight bands tile the result array: row r lies in the band of point r / 16384, which writes back. -/
theorem bands_cover2 (i : S131072x128.Idx) :
    ∃ t : Fin cfg2.N, (cfg2.win 4).flush t = true ∧ i ∈ ((cfg2.win 4).blk t).view.set := by
  have hi0 : (i 0).val < 131072 := (i 0).isLt
  have hi1 : (i 1).val < 128 := (i 1).isLt
  obtain ⟨t, ht⟩ := band_onto2 ⟨(i 0).val / 16384, by omega⟩
  have ht' : t.val = (i 0).val / 16384 := ht
  obtain ⟨-, -, -, -, -, -, -, -, e0, e1⟩ := band_index2 t
  refine ⟨t, flush2_4 t, ?_⟩
  rw [mem_band2]
  intro a
  match a with
  | ⟨0, _⟩ =>
    show win2_4.index t (0 : Fin 2) * 16384 ≤ (i 0).val ∧ (i 0).val < win2_4.index t (0 : Fin 2) * 16384 + 16384
    rw [e0]; omega
  | ⟨1, _⟩ =>
    show win2_4.index t (1 : Fin 2) * 128 ≤ (i 1).val ∧ (i 1).val < win2_4.index t (1 : Fin 2) * 128 + 128
    rw [e1]; omega

/-! ## Region 3 -/

/-- The block indices of region 3's windows at each of the eight points: the row-blocked windows sit at band t,
    column block 0; the bias row's window stays at block (0, 0). -/
theorem band_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every band is some point's. -/
theorem band_onto3 : ∀ b : Fin 8, ∃ t : Fin cfg3.N, t.val = b.val :=
  (by decide +kernel : ∀ b : Fin 8, ∃ t : Fin grid3.N, t.val = b.val)

/-- Row p of the matrix operand's band at point t is row t·16384 + p of the array. -/
theorem matrix_band3 (c : Dev nD) (t : Fin cfg3.N) (p : Fin 16384) (P : Fin 131072) (hP : P.val = t.val * 16384 + p.val)
    (q : Fin 128) :
    (iblk3 V c 0 t : Vec Ideal S16384x128 .f32) (ix2 p q) = (V c main_v45 : Mat 131072 128) (ix2 P q) := by
  obtain ⟨e0, e1, -⟩ := band_index3 t
  unfold iblk3
  rw [View.read_apply]
  show V c main_v45 _ = V c main_v45 _
  congr 1
  funext a
  apply Fin.ext
  match a with
  | ⟨0, _⟩ => show win3_0.index t (0 : Fin 2) * 16384 + 1 * p.val = P.val; rw [e0, hP]; omega
  | ⟨1, _⟩ => show win3_0.index t (1 : Fin 2) * 128 + 1 * q.val = q.val; rw [e1]; omega

/-- Entry p of the column operand's band at point t is entry t·16384 + p of the array. -/
theorem column_band3 (c : Dev nD) (t : Fin cfg3.N) (p : Fin 16384) (P : Fin 131072) (hP : P.val = t.val * 16384 + p.val) :
    (iblk3 V c 1 t : Vec Ideal S16384x1 .f32) (ix2 p (0 : Fin 1)) = (V c main_v46 : Mat 131072 1) (ix2 P (0 : Fin 1)) := by
  obtain ⟨-, -, e0, e1, -⟩ := band_index3 t
  unfold iblk3
  rw [View.read_apply]
  show V c main_v46 _ = V c main_v46 _
  congr 1
  funext a
  apply Fin.ext
  match a with
  | ⟨0, _⟩ => show win3_1.index t (0 : Fin 2) * 16384 + 1 * p.val = P.val; rw [e0, hP]; omega
  | ⟨1, _⟩ => show win3_1.index t (1 : Fin 2) * 1 + 1 * 0 = 0; rw [e1]

/-- The bias row's block at any point is the array. -/
theorem bias_whole3 (c : Dev nD) (t : Fin cfg3.N) :
    (iblk3 V c 2 t : Vec Ideal S1x128 .f32) = (V c main_v47 : Mat 1 128) := by
  obtain ⟨-, -, -, -, e0, e1, -⟩ := band_index3 t
  funext y
  unfold iblk3
  rw [View.read_apply]
  show V c main_v47 _ = V c main_v47 _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- What point t writes back is band t of the whole-array function. -/
theorem flushed3 (c : Dev nD) (t : Fin cfg3.N) :
    (dat3 (F := Ideal) V c).flushed 3 t
      = ((cfg3.win 3).blk t).view.read (Elt Ideal) (addRow (scaleCol (V c main_v45) (V c main_v46)) (V c main_v47)) := by
  show (cfg3.win 3).cut (grid3.coords t) ((dat3 V c).after 3 t) = _
  rw [after3_3]
  unfold out3_3
  rw [View.canon_unit_zero zero_offsets]
  simp only [View.ld_unit_zero (S := S16384x128) zero_offsets, View.ld_unit_zero (S := S16384x1) zero_offsets,
    View.ld_unit_zero (S := S1x128) zero_offsets]
  rw [biasScale_block, bias_whole3]
  obtain ⟨-, -, -, -, -, -, e0, e1⟩ := band_index3 t
  funext j
  obtain ⟨p, q, rfl⟩ : ∃ (p : Fin 16384) (q : Fin 128), j = ix2 p q := ⟨j 0, j 1, eq_ix2 j⟩
  have ht : t.val < 8 := lt_of_lt_of_eq t.isLt N_3
  have hP : t.val * 16384 + p.val < 131072 := by have := p.isLt; omega
  have hemb : ((cfg3.win 3).blk t).view.emb (ix2 p q) = (ix2 ⟨t.val * 16384 + p.val, hP⟩ q : S131072x128.Idx) := by
    funext a
    apply Fin.ext
    match a with
    | ⟨0, _⟩ => show win3_3.index t (0 : Fin 2) * 16384 + 1 * p.val = t.val * 16384 + p.val; rw [e0]; omega
    | ⟨1, _⟩ => show win3_3.index t (1 : Fin 2) * 128 + 1 * q.val = q.val; rw [e1]; omega
  show addRow (scaleCol (iblk3 V c 0 t) (iblk3 V c 1 t)) (V c main_v47) (ix2 p q)
    = addRow (scaleCol (V c main_v45) (V c main_v46)) (V c main_v47) (((cfg3.win 3).blk t).view.emb (ix2 p q))
  rw [hemb]
  exact addRow_rows _ _ _ p ⟨_, hP⟩
    (fun k => scaleCol_rows _ _ _ _ p ⟨_, hP⟩ (fun k' => matrix_band3 V c t p _ rfl k') (column_band3 V c t p _ rfl) k) q

/-- An index of the result array lies in point t's block iff each coordinate lies in the block's range. -/
theorem mem_band3 (t : Fin cfg3.N) (i : S131072x128.Idx) :
    i ∈ ((cfg3.win 3).blk t).view.set
      ↔ ∀ a : Fin 2, win3_3.index t a * S16384x128.size a ≤ (i a).val
          ∧ (i a).val < win3_3.index t a * S16384x128.size a + S16384x128.size a := by
  show i ∈ ((View.whole main_v48).slice (win3_3.rect t)).set ↔ _
  rw [View.set_slice_whole, Rect.mem_set_unit]
  exact Iff.rfl

/-- The eight bands tile the result array: row r lies in the band of point r / 16384, which writes back. -/
theorem bands_cover3 (i : S131072x128.Idx) :
    ∃ t : Fin cfg3.N, (cfg3.win 3).flush t = true ∧ i ∈ ((cfg3.win 3).blk t).view.set := by
  have hi0 : (i 0).val < 131072 := (i 0).isLt
  have hi1 : (i 1).val < 128 := (i 1).isLt
  obtain ⟨t, ht⟩ := band_onto3 ⟨(i 0).val / 16384, by omega⟩
  have ht' : t.val = (i 0).val / 16384 := ht
  obtain ⟨-, -, -, -, -, -, e0, e1⟩ := band_index3 t
  refine ⟨t, flush3_3 t, ?_⟩
  rw [mem_band3]
  intro a
  match a with
  | ⟨0, _⟩ =>
    show win3_3.index t (0 : Fin 2) * 16384 ≤ (i 0).val ∧ (i 0).val < win3_3.index t (0 : Fin 2) * 16384 + 16384
    rw [e0]; omega
  | ⟨1, _⟩ =>
    show win3_3.index t (1 : Fin 2) * 128 ≤ (i 1).val ∧ (i 1).val < win3_3.index t (1 : Fin 2) * 128 + 128
    rw [e1]; omega

end Cert.Conv.Bands

namespace Cert.Conv

open Idealize.ShloMosaic Idealize.ShloMosaic.TcCoe Idealize.SL.Sem Idealize.ShloMosaic.ValueIdx DenseRows Cert.KernelIdeal Cert.KernelIdeal.Gen
open Idealize.ShloMosaic.Pipeline (Dat)
open Cert.Conv.Bands

variable (V : (c : Dev nD) → (b : Ref sig .tc) → Buf (Elt Ideal) ((c : Thread nD τ).loc b))

/-! ## The two arrays after their sweeps -/

/-- Region 2's result array after the sweep. -/
theorem region2_value (c : Dev nD) :
    (dat2 (F := Ideal) V c).arrAt 4 cfg2.N
      = scaleCol (mm (relu (addRow (scaleCol (V c main_v31) (V c main_v33)) (V c main_v34))) (V c main_v32)) (V c main_v33) :=
  (dat2 (F := Ideal) V c).arrAt_eq_of_cover 4
    (scaleCol (mm (relu (addRow (scaleCol (V c main_v31) (V c main_v33)) (V c main_v34))) (V c main_v32)) (V c main_v33))
    (fun t _ => flushed2 V c t) bands_cover2

/-- Region 3's result array after the sweep. -/
theorem region3_value (c : Dev nD) :
    (dat3 (F := Ideal) V c).arrAt 3 cfg3.N = addRow (scaleCol (V c main_v45) (V c main_v46)) (V c main_v47) :=
  (dat3 (F := Ideal) V c).arrAt_eq_of_cover 3 (addRow (scaleCol (V c main_v45) (V c main_v46)) (V c main_v47))
    (fun t _ => flushed3 V c t) bands_cover3

end Cert.Conv

end
-- ==== Proof.KernelValue.lean ====
/-
  What the kernel's program leaves in its result buffers, as functions of the argument arrays.

  The run's buffer contents at each boundary (after a stretch of host operations, after a matrix kernel) are a fold from
  the launch memory. Walking the fold forward, every buffer that is read later is named at every boundary up to its
  last reader: a host stretch writes its operations' values and keeps every other buffer; a matrix kernel's output array
  is its whole-array function of its input arrays, and it keeps every buffer that is not one of its arrays. At the end
  the float result is the second convolution's result regrouped into graphs, and the integer results are a regrouping of
  the tokens and two constants.
-/
import proofs.«419247_j38972533244081_2_alg».proof.Proof.KernelSpec
import proofs.«419247_j38972533244081_2_alg».proof.Proof.RegionProj
import proofs.«419247_j38972533244081_2_alg».proof.Proof.RegionConv

set_option maxRecDepth 16384

noncomputable section

namespace Cert.Conv.K

open Idealize.ShloMosaic Idealize.ShloMosaic.TcCoe Idealize.SL.Sem Idealize.ShloMosaic.StableHlo
open Cert.KernelIdeal Cert.KernelIdeal.Gen DenseRows Cert.Conv

local notation "↑ᵣ" b => Proc.devRef Proc.tc b

variable (m : (ℓ : Loc nD τ sig) → Buf (Elt Ideal) ℓ) (ρ : Dev nD → PrngReg)

/-! ## At the launch and before the first kernel -/

theorem W1_v0 (c : Dev nD) : W1 m ρ c (↑ᵣ main_v0) = takeRows (F := Ideal) (m ((c : Thread nD τ).loc main_arg0)) (m ((c : Thread nD τ).loc main_arg2)) :=
  s0_v0 (W0 m ρ c)
theorem W1_a0 (c : Dev nD) : W1 m ρ c (↑ᵣ main_arg0) = m ((c : Thread nD τ).loc main_arg0) :=
  (s0_keep (W0 m ρ c)).1
theorem W1_a1 (c : Dev nD) : W1 m ρ c (↑ᵣ main_arg1) = m ((c : Thread nD τ).loc main_arg1) :=
  (s0_keep (W0 m ρ c)).2.1
theorem W1_a3 (c : Dev nD) : W1 m ρ c (↑ᵣ main_arg3) = m ((c : Thread nD τ).loc main_arg3) :=
  (s0_keep (W0 m ρ c)).2.2.1
theorem W1_a4 (c : Dev nD) : W1 m ρ c (↑ᵣ main_arg4) = m ((c : Thread nD τ).loc main_arg4) :=
  (s0_keep (W0 m ρ c)).2.2.2.1
theorem W1_a5 (c : Dev nD) : W1 m ρ c (↑ᵣ main_arg5) = m ((c : Thread nD τ).loc main_arg5) :=
  (s0_keep (W0 m ρ c)).2.2.2.2.1
theorem W1_a6 (c : Dev nD) : W1 m ρ c (↑ᵣ main_arg6) = m ((c : Thread nD τ).loc main_arg6) :=
  (s0_keep (W0 m ρ c)).2.2.2.2.2.1
theorem W1_a7 (c : Dev nD) : W1 m ρ c (↑ᵣ main_arg7) = m ((c : Thread nD τ).loc main_arg7) :=
  (s0_keep (W0 m ρ c)).2.2.2.2.2.2.1
theorem W1_a8 (c : Dev nD) : W1 m ρ c (↑ᵣ main_arg8) = m ((c : Thread nD τ).loc main_arg8) :=
  (s0_keep (W0 m ρ c)).2.2.2.2.2.2.2
theorem W2_v0 (c : Dev nD) : W2 m ρ c (↑ᵣ main_v0) = takeRows (F := Ideal) (m ((c : Thread nD τ).loc main_arg0)) (m ((c : Thread nD τ).loc main_arg2)) :=
  (s01_keep (W1 m ρ c)).1.trans (W1_v0 m ρ c)
theorem W2_v1 (c : Dev nD) : W2 m ρ c (↑ᵣ main_v1) = transpose S256x128 [1, 0] (m ((c : Thread nD τ).loc main_arg3)) transposes_S128x256_S256x128_1_0 :=
  (s01_v1 (W1 m ρ c)).trans (by rw [W1_a3])
theorem W2_v2 (c : Dev nD) : W2 m ρ c (↑ᵣ main_v2) = shapeCast S1x128 (m ((c : Thread nD τ).loc main_arg4)) shapeCasts_S128_S1x128 :=
  (s01_v2 (W1 m ρ c)).trans (by rw [W1_a4])
theorem W2_a0 (c : Dev nD) : W2 m ρ c (↑ᵣ main_arg0) = m ((c : Thread nD τ).loc main_arg0) :=
  (s01_keep (W1 m ρ c)).2.1.trans (W1_a0 m ρ c)
theorem W2_a1 (c : Dev nD) : W2 m ρ c (↑ᵣ main_arg1) = m ((c : Thread nD τ).loc main_arg1) :=
  (s01_keep (W1 m ρ c)).2.2.1.trans (W1_a1 m ρ c)
theorem W2_a5 (c : Dev nD) : W2 m ρ c (↑ᵣ main_arg5) = m ((c : Thread nD τ).loc main_arg5) :=
  (s01_keep (W1 m ρ c)).2.2.2.1.trans (W1_a5 m ρ c)
theorem W2_a6 (c : Dev nD) : W2 m ρ c (↑ᵣ main_arg6) = m ((c : Thread nD τ).loc main_arg6) :=
  (s01_keep (W1 m ρ c)).2.2.2.2.1.trans (W1_a6 m ρ c)
theorem W2_a7 (c : Dev nD) : W2 m ρ c (↑ᵣ main_arg7) = m ((c : Thread nD τ).loc main_arg7) :=
  (s01_keep (W1 m ρ c)).2.2.2.2.2.1.trans (W1_a7 m ρ c)
theorem W2_a8 (c : Dev nD) : W2 m ρ c (↑ᵣ main_arg8) = m ((c : Thread nD τ).loc main_arg8) :=
  (s01_keep (W1 m ρ c)).2.2.2.2.2.2.trans (W1_a8 m ρ c)

/-! ## After the first kernel -/

theorem W3_v3 (c : Dev nD) : W3 m ρ c (↑ᵣ main_v3) = feat (m ((c : Thread nD τ).loc main_arg0)) (m ((c : Thread nD τ).loc main_arg2)) (m ((c : Thread nD τ).loc main_arg3)) (m ((c : Thread nD τ).loc main_arg4)) := by
  refine (W3_arr m ρ c 3).trans ((region0_value (V2 m ρ) c).trans ?_)
  show addRow (mm (W2 m ρ c (↑ᵣ main_v0)) (W2 m ρ c (↑ᵣ main_v1))) (W2 m ρ c (↑ᵣ main_v2)) = _
  rw [W2_v0, W2_v1, W2_v2]
  rfl
theorem W3_a0 (c : Dev nD) : W3 m ρ c (↑ᵣ main_arg0) = m ((c : Thread nD τ).loc main_arg0) :=
  (W3_of_ne m ρ c main_arg0 (by decide)).trans (W2_a0 m ρ c)
theorem W3_a1 (c : Dev nD) : W3 m ρ c (↑ᵣ main_arg1) = m ((c : Thread nD τ).loc main_arg1) :=
  (W3_of_ne m ρ c main_arg1 (by decide)).trans (W2_a1 m ρ c)
theorem W3_a5 (c : Dev nD) : W3 m ρ c (↑ᵣ main_arg5) = m ((c : Thread nD τ).loc main_arg5) :=
  (W3_of_ne m ρ c main_arg5 (by decide)).trans (W2_a5 m ρ c)
theorem W3_a6 (c : Dev nD) : W3 m ρ c (↑ᵣ main_arg6) = m ((c : Thread nD τ).loc main_arg6) :=
  (W3_of_ne m ρ c main_arg6 (by decide)).trans (W2_a6 m ρ c)
theorem W3_a7 (c : Dev nD) : W3 m ρ c (↑ᵣ main_arg7) = m ((c : Thread nD τ).loc main_arg7) :=
  (W3_of_ne m ρ c main_arg7 (by decide)).trans (W2_a7 m ρ c)
theorem W3_a8 (c : Dev nD) : W3 m ρ c (↑ᵣ main_arg8) = m ((c : Thread nD τ).loc main_arg8) :=
  (W3_of_ne m ρ c main_arg8 (by decide)).trans (W2_a8 m ρ c)

/-! ## Between the first and the second kernel -/

theorem W4_v7 (c : Dev nD) : W4 m ρ c (↑ᵣ main_v7) = srcWords (m ((c : Thread nD τ).loc main_arg1)) :=
  (s1_v7 (W3 m ρ c)).trans (by rw [W3_a1])
theorem W4_v10 (c : Dev nD) : W4 m ρ c (↑ᵣ main_v10) = dstWords (m ((c : Thread nD τ).loc main_arg1)) :=
  (s1_v10 (W3 m ρ c)).trans (by rw [W3_a1])
theorem W4_v16 (c : Dev nD) : W4 m ρ c (↑ᵣ main_v16) = cmpf (F := Ideal) .ogt (degree (F := Ideal) (dstWords (m ((c : Thread nD τ).loc main_arg1)))) (broadcastInDim S131072 ![] bcast_S_S131072 (constant S_ .f32 0x00000000#32)) :=
  (s1_v16 (W3 m ρ c)).trans (by rw [W3_a1])
theorem W4_v17 (c : Dev nD) : W4 m ρ c (↑ᵣ main_v17) = Host.rsqrt (degree (F := Ideal) (dstWords (m ((c : Thread nD τ).loc main_arg1)))) :=
  (s1_v17 (W3 m ρ c)).trans (by rw [W3_a1])
theorem W4_cst2 (c : Dev nD) : W4 m ρ c (↑ᵣ main_cst_2) = constant (F := Ideal) S_ .f32 0x00000000#32 :=
  s1_cst2 (W3 m ρ c)
theorem W4_v3 (c : Dev nD) : W4 m ρ c (↑ᵣ main_v3) = feat (m ((c : Thread nD τ).loc main_arg0)) (m ((c : Thread nD τ).loc main_arg2)) (m ((c : Thread nD τ).loc main_arg3)) (m ((c : Thread nD τ).loc main_arg4)) :=
  (s1_keep (W3 m ρ c)).1.trans (W3_v3 m ρ c)
theorem W4_a0 (c : Dev nD) : W4 m ρ c (↑ᵣ main_arg0) = m ((c : Thread nD τ).loc main_arg0) :=
  (s1_keep (W3 m ρ c)).2.1.trans (W3_a0 m ρ c)
theorem W4_a5 (c : Dev nD) : W4 m ρ c (↑ᵣ main_arg5) = m ((c : Thread nD τ).loc main_arg5) :=
  (s1_keep (W3 m ρ c)).2.2.1.trans (W3_a5 m ρ c)
theorem W4_a6 (c : Dev nD) : W4 m ρ c (↑ᵣ main_arg6) = m ((c : Thread nD τ).loc main_arg6) :=
  (s1_keep (W3 m ρ c)).2.2.2.1.trans (W3_a6 m ρ c)
theorem W4_a7 (c : Dev nD) : W4 m ρ c (↑ᵣ main_arg7) = m ((c : Thread nD τ).loc main_arg7) :=
  (s1_keep (W3 m ρ c)).2.2.2.2.1.trans (W3_a7 m ρ c)
theorem W4_a8 (c : Dev nD) : W4 m ρ c (↑ᵣ main_arg8) = m ((c : Thread nD τ).loc main_arg8) :=
  (s1_keep (W3 m ρ c)).2.2.2.2.2.trans (W3_a8 m ρ c)
theorem W5_v18 (c : Dev nD) : W5 m ρ c (↑ᵣ main_v18) = dinv (m ((c : Thread nD τ).loc main_arg1)) := by
  refine (s11_v18 (W4 m ρ c)).trans ?_
  rw [W4_v16, W4_v17, W4_cst2]
  rfl
theorem W5_v3 (c : Dev nD) : W5 m ρ c (↑ᵣ main_v3) = feat (m ((c : Thread nD τ).loc main_arg0)) (m ((c : Thread nD τ).loc main_arg2)) (m ((c : Thread nD τ).loc main_arg3)) (m ((c : Thread nD τ).loc main_arg4)) :=
  (s11_keep (W4 m ρ c)).1.trans (W4_v3 m ρ c)
theorem W5_v7 (c : Dev nD) : W5 m ρ c (↑ᵣ main_v7) = srcWords (m ((c : Thread nD τ).loc main_arg1)) :=
  (s11_keep (W4 m ρ c)).2.1.trans (W4_v7 m ρ c)
theorem W5_v10 (c : Dev nD) : W5 m ρ c (↑ᵣ main_v10) = dstWords (m ((c : Thread nD τ).loc main_arg1)) :=
  (s11_keep (W4 m ρ c)).2.2.1.trans (W4_v10 m ρ c)
theorem W5_a0 (c : Dev nD) : W5 m ρ c (↑ᵣ main_arg0) = m ((c : Thread nD τ).loc main_arg0) :=
  (s11_keep (W4 m ρ c)).2.2.2.1.trans (W4_a0 m ρ c)
theorem W5_a5 (c : Dev nD) : W5 m ρ c (↑ᵣ main_arg5) = m ((c : Thread nD τ).loc main_arg5) :=
  (s11_keep (W4 m ρ c)).2.2.2.2.1.trans (W4_a5 m ρ c)
theorem W5_a6 (c : Dev nD) : W5 m ρ c (↑ᵣ main_arg6) = m ((c : Thread nD τ).loc main_arg6) :=
  (s11_keep (W4 m ρ c)).2.2.2.2.2.1.trans (W4_a6 m ρ c)
theorem W5_a7 (c : Dev nD) : W5 m ρ c (↑ᵣ main_arg7) = m ((c : Thread nD τ).loc main_arg7) :=
  (s11_keep (W4 m ρ c)).2.2.2.2.2.2.1.trans (W4_a7 m ρ c)
theorem W5_a8 (c : Dev nD) : W5 m ρ c (↑ᵣ main_arg8) = m ((c : Thread nD τ).loc main_arg8) :=
  (s11_keep (W4 m ρ c)).2.2.2.2.2.2.2.trans (W4_a8 m ρ c)
theorem W6_v19 (c : Dev nD) : W6 m ρ c (↑ᵣ main_v19) = tr128 (m ((c : Thread nD τ).loc main_arg5)) :=
  (s12_v19 (W5 m ρ c)).trans (by rw [W5_a5]; rfl)
theorem W6_v20 (c : Dev nD) : W6 m ρ c (↑ᵣ main_v20) = dcol (m ((c : Thread nD τ).loc main_arg1)) :=
  (s12_v20 (W5 m ρ c)).trans (by rw [W5_v18]; rfl)
theorem W6_v3 (c : Dev nD) : W6 m ρ c (↑ᵣ main_v3) = feat (m ((c : Thread nD τ).loc main_arg0)) (m ((c : Thread nD τ).loc main_arg2)) (m ((c : Thread nD τ).loc main_arg3)) (m ((c : Thread nD τ).loc main_arg4)) :=
  (s12_keep (W5 m ρ c)).1.trans (W5_v3 m ρ c)
theorem W6_v7 (c : Dev nD) : W6 m ρ c (↑ᵣ main_v7) = srcWords (m ((c : Thread nD τ).loc main_arg1)) :=
  (s12_keep (W5 m ρ c)).2.1.trans (W5_v7 m ρ c)
theorem W6_v10 (c : Dev nD) : W6 m ρ c (↑ᵣ main_v10) = dstWords (m ((c : Thread nD τ).loc main_arg1)) :=
  (s12_keep (W5 m ρ c)).2.2.1.trans (W5_v10 m ρ c)
theorem W6_v18 (c : Dev nD) : W6 m ρ c (↑ᵣ main_v18) = dinv (m ((c : Thread nD τ).loc main_arg1)) :=
  (s12_keep (W5 m ρ c)).2.2.2.1.trans (W5_v18 m ρ c)
theorem W6_a0 (c : Dev nD) : W6 m ρ c (↑ᵣ main_arg0) = m ((c : Thread nD τ).loc main_arg0) :=
  (s12_keep (W5 m ρ c)).2.2.2.2.1.trans (W5_a0 m ρ c)
theorem W6_a6 (c : Dev nD) : W6 m ρ c (↑ᵣ main_arg6) = m ((c : Thread nD τ).loc main_arg6) :=
  (s12_keep (W5 m ρ c)).2.2.2.2.2.1.trans (W5_a6 m ρ c)
theorem W6_a7 (c : Dev nD) : W6 m ρ c (↑ᵣ main_arg7) = m ((c : Thread nD τ).loc main_arg7) :=
  (s12_keep (W5 m ρ c)).2.2.2.2.2.2.1.trans (W5_a7 m ρ c)
theorem W6_a8 (c : Dev nD) : W6 m ρ c (↑ᵣ main_arg8) = m ((c : Thread nD τ).loc main_arg8) :=
  (s12_keep (W5 m ρ c)).2.2.2.2.2.2.2.trans (W5_a8 m ρ c)

/-! ## After the second kernel -/

theorem W7_v21 (c : Dev nD) : W7 m ρ c (↑ᵣ main_v21) = lin1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 3).trans ((region1_value (V6 m ρ) c).trans ?_)
  show scaleCol (mm (W6 m ρ c (↑ᵣ main_v3)) (W6 m ρ c (↑ᵣ main_v19))) (W6 m ρ c (↑ᵣ main_v20)) = _
  rw [W6_v3, W6_v19, W6_v20]
  rfl
theorem W7_v7 (c : Dev nD) : W7 m ρ c (↑ᵣ main_v7) = srcWords (m ((c : Thread nD τ).loc main_arg1)) :=
  (W7_of_ne m ρ c main_v7 (by decide)).trans (W6_v7 m ρ c)
theorem W7_v10 (c : Dev nD) : W7 m ρ c (↑ᵣ main_v10) = dstWords (m ((c : Thread nD τ).loc main_arg1)) :=
  (W7_of_ne m ρ c main_v10 (by decide)).trans (W6_v10 m ρ c)
theorem W7_v18 (c : Dev nD) : W7 m ρ c (↑ᵣ main_v18) = dinv (m ((c : Thread nD τ).loc main_arg1)) :=
  (W7_of_ne m ρ c main_v18 (by decide)).trans (W6_v18 m ρ c)
theorem W7_a0 (c : Dev nD) : W7 m ρ c (↑ᵣ main_arg0) = m ((c : Thread nD τ).loc main_arg0) :=
  (W7_of_ne m ρ c main_arg0 (by decide)).trans (W6_a0 m ρ c)
theorem W7_a6 (c : Dev nD) : W7 m ρ c (↑ᵣ main_arg6) = m ((c : Thread nD τ).loc main_arg6) :=
  (W7_of_ne m ρ c main_arg6 (by decide)).trans (W6_a6 m ρ c)
theorem W7_a7 (c : Dev nD) : W7 m ρ c (↑ᵣ main_arg7) = m ((c : Thread nD τ).loc main_arg7) :=
  (W7_of_ne m ρ c main_arg7 (by decide)).trans (W6_a7 m ρ c)
theorem W7_a8 (c : Dev nD) : W7 m ρ c (↑ᵣ main_arg8) = m ((c : Thread nD τ).loc main_arg8) :=
  (W7_of_ne m ρ c main_arg8 (by decide)).trans (W6_a8 m ρ c)

/-! ## Between the second and the third kernel -/

theorem W8_v31 (c : Dev nD) : W8 m ρ c (↑ᵣ main_v31) = agg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (s2_v31 (W7 m ρ c)).trans ?_
  rw [W7_v21, W7_v7, W7_v10]
  rfl
theorem W8_v32 (c : Dev nD) : W8 m ρ c (↑ᵣ main_v32) = tr128 (m ((c : Thread nD τ).loc main_arg7)) :=
  (s2_v32 (W7 m ρ c)).trans (by rw [W7_a7]; rfl)
theorem W8_v33 (c : Dev nD) : W8 m ρ c (↑ᵣ main_v33) = dcol (m ((c : Thread nD τ).loc main_arg1)) :=
  (s2_v33 (W7 m ρ c)).trans (by rw [W7_v18]; rfl)
theorem W8_v34 (c : Dev nD) : W8 m ρ c (↑ᵣ main_v34) = rowOf128 (m ((c : Thread nD τ).loc main_arg6)) :=
  (s2_v34 (W7 m ρ c)).trans (by rw [W7_a6]; rfl)
theorem W8_v7 (c : Dev nD) : W8 m ρ c (↑ᵣ main_v7) = srcWords (m ((c : Thread nD τ).loc main_arg1)) :=
  (s2_keep (W7 m ρ c)).1.trans (W7_v7 m ρ c)
theorem W8_v10 (c : Dev nD) : W8 m ρ c (↑ᵣ main_v10) = dstWords (m ((c : Thread nD τ).loc main_arg1)) :=
  (s2_keep (W7 m ρ c)).2.1.trans (W7_v10 m ρ c)
theorem W8_v18 (c : Dev nD) : W8 m ρ c (↑ᵣ main_v18) = dinv (m ((c : Thread nD τ).loc main_arg1)) :=
  (s2_keep (W7 m ρ c)).2.2.1.trans (W7_v18 m ρ c)
theorem W8_a0 (c : Dev nD) : W8 m ρ c (↑ᵣ main_arg0) = m ((c : Thread nD τ).loc main_arg0) :=
  (s2_keep (W7 m ρ c)).2.2.2.1.trans (W7_a0 m ρ c)
theorem W8_a8 (c : Dev nD) : W8 m ρ c (↑ᵣ main_arg8) = m ((c : Thread nD τ).loc main_arg8) :=
  (s2_keep (W7 m ρ c)).2.2.2.2.trans (W7_a8 m ρ c)

/-! ## After the third kernel -/

theorem W9_v35 (c : Dev nD) : W9 m ρ c (↑ᵣ main_v35) = lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 4).trans ((region2_value (V8 m ρ) c).trans ?_)
  show scaleCol (mm (relu (addRow (scaleCol (W8 m ρ c (↑ᵣ main_v31)) (W8 m ρ c (↑ᵣ main_v33))) (W8 m ρ c (↑ᵣ main_v34)))) (W8 m ρ c (↑ᵣ main_v32))) (W8 m ρ c (↑ᵣ main_v33)) = _
  rw [W8_v31, W8_v32, W8_v33, W8_v34]
  rfl
theorem W9_v7 (c : Dev nD) : W9 m ρ c (↑ᵣ main_v7) = srcWords (m ((c : Thread nD τ).loc main_arg1)) :=
  (W9_of_ne m ρ c main_v7 (by decide)).trans (W8_v7 m ρ c)
theorem W9_v10 (c : Dev nD) : W9 m ρ c (↑ᵣ main_v10) = dstWords (m ((c : Thread nD τ).loc main_arg1)) :=
  (W9_of_ne m ρ c main_v10 (by decide)).trans (W8_v10 m ρ c)
theorem W9_v18 (c : Dev nD) : W9 m ρ c (↑ᵣ main_v18) = dinv (m ((c : Thread nD τ).loc main_arg1)) :=
  (W9_of_ne m ρ c main_v18 (by decide)).trans (W8_v18 m ρ c)
theorem W9_a0 (c : Dev nD) : W9 m ρ c (↑ᵣ main_arg0) = m ((c : Thread nD τ).loc main_arg0) :=
  (W9_of_ne m ρ c main_arg0 (by decide)).trans (W8_a0 m ρ c)
theorem W9_a8 (c : Dev nD) : W9 m ρ c (↑ᵣ main_arg8) = m ((c : Thread nD τ).loc main_arg8) :=
  (W9_of_ne m ρ c main_arg8 (by decide)).trans (W8_a8 m ρ c)

/-! ## Between the third and the fourth kernel -/

theorem W10_v45 (c : Dev nD) : W10 m ρ c (↑ᵣ main_v45) = agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (s3_v45 (W9 m ρ c)).trans ?_
  rw [W9_v35, W9_v7, W9_v10]
  rfl
theorem W10_v46 (c : Dev nD) : W10 m ρ c (↑ᵣ main_v46) = dcol (m ((c : Thread nD τ).loc main_arg1)) :=
  (s3_v46 (W9 m ρ c)).trans (by rw [W9_v18]; rfl)
theorem W10_v47 (c : Dev nD) : W10 m ρ c (↑ᵣ main_v47) = rowOf128 (m ((c : Thread nD τ).loc main_arg8)) :=
  (s3_v47 (W9 m ρ c)).trans (by rw [W9_a8]; rfl)
theorem W10_a0 (c : Dev nD) : W10 m ρ c (↑ᵣ main_arg0) = m ((c : Thread nD τ).loc main_arg0) :=
  (s3_keep (W9 m ρ c)).trans (W9_a0 m ρ c)

/-! ## After the fourth kernel, and the results -/

theorem W11_v48 (c : Dev nD) : W11 m ρ c (↑ᵣ main_v48) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ((region3_value (V10 m ρ) c).trans ?_)
  show addRow (scaleCol (W10 m ρ c (↑ᵣ main_v45)) (W10 m ρ c (↑ᵣ main_v46))) (W10 m ρ c (↑ᵣ main_v47)) = _
  rw [W10_v45, W10_v46, W10_v47]
  rfl
theorem W11_a0 (c : Dev nD) : W11 m ρ c (↑ᵣ main_arg0) = m ((c : Thread nD τ).loc main_arg0) :=
  (W11_of_ne m ρ c main_arg0 (by decide)).trans (W10_a0 m ρ c)
theorem W12_v49 (c : Dev nD) : W12 m ρ c (↑ᵣ main_v49) = shapeCast S64x2048x128 (out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S131072x128_S64x2048x128 :=
  (s4_v49 (W11 m ρ c)).trans (by rw [W11_v48])
theorem W12_v50 (c : Dev nD) : W12 m ρ c (↑ᵣ main_v50) = shapeCast S64x2048 (m ((c : Thread nD τ).loc main_arg0)) shapeCasts_S131072_S64x2048 :=
  (s4_v50 (W11 m ρ c)).trans (by rw [W11_a0])
theorem W12_v51 (c : Dev nD) : W12 m ρ c (↑ᵣ main_v51) = broadcastInDim S64x2048 ![] bcast_S_S64x2048 (constantI S_ 1 1#1) :=
  s4_v51 (W11 m ρ c)
theorem W12_v53 (c : Dev nD) : W12 m ρ c (↑ᵣ main_v53) = broadcastInDim S64x2048 ![1] bcast_S2048_S64x2048_1 (iotaInDim S2048 32 0) :=
  s4_v53 (W11 m ρ c)

end Cert.Conv.K

end
-- ==== Proof.TakeRows.lean ====
/-
  With every token inside the table, taking rows needs no filler.

  The kernel's program takes the table's rows at the tokens in three steps: a token below 0 is moved up by the table's
  height; each moved token is tested against the table's bounds 0 and 31999; the row is gathered, and replaced by a
  filler where the test failed. When every token, read as a signed integer, is at least 0 and below 32000, no token is
  moved, every test succeeds, and the result is the gathered rows.
-/
import proofs.«419247_j38972533244081_2_alg».proof.Proof.KernelHost
import Idealize.ShloMosaic.Lib.ReduceAll
import Idealize.ShloMosaic.PureOps.Reduce

noncomputable section

namespace Cert.Conv.K

open Idealize.ShloMosaic Idealize.ShloMosaic.TcCoe
open Cert.KernelIdeal Cert.KernelIdeal.Gen

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    refine foldl_andi_of_all f l _ ?_ (fun n hn => h n (List.mem_cons_of_mem _ hn))
    show IntOp.andi init (f a) = 1#1
    rw [hi, h a (List.mem_cons_self ..)]
    decide

/-- A reduce by `and` from 1 of an array whose entries are all 1 is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_of_all x _ _ hinit (fun n _ => hx n)

variable {F : FTy → Type} [FloatOps F]

/-- A token that is not below 0 is not moved. -/
theorem wrapTok_of_nonneg (tok : IVec S131072 32) (i : S131072.Idx) (h : 0 ≤ (tok i).toInt) : wrapTok tok i = tok i := by
  show Scalar.select (IntOp.cmpi .slt (tok i) (0#32)) _ (tok i) = tok i
  have hc : IntOp.cmpi .slt (tok i) (0#32) ≠ 1#1 := fun e => by
    have := IntOp.cmpi_slt.mp e
    rw [show (0#32 : BitVec 32).toInt = 0 from by decide] at this
    omega
  exact if_neg hc

theorem tokInside_of_range (tok : IVec S131072 32) (h : ∀ i, 0 ≤ (tok i).toInt ∧ (tok i).toInt < 32000) (j : S131072.Idx) :
    tokInside tok j = 1#1 := by
  unfold tokInside
  refine reduce_andi_of_all _ _ _ _ rfl (fun i => ?_) j
  show IntOp.andi (IntOp.cmpi .sge (tokCol tok i) (0#32)) (IntOp.cmpi .sle (tokCol tok i) (31999#32)) = 1#1
  obtain ⟨k, hk⟩ : ∃ k : S131072.Idx, tokCol tok i = wrapTok tok k := ⟨_, rfl⟩
  rw [hk, wrapTok_of_nonneg tok k (h k).1]
  refine IntOp.andi_eq_one.mpr ⟨IntOp.cmpi_sge.mpr ?_, IntOp.cmpi_sle.mpr ?_⟩
  · rw [show (0#32 : BitVec 32).toInt = 0 from by decide]; exact (h k).1
  · rw [show (31999#32 : BitVec 32).toInt = 31999 from by decide]; have := (h k).2; omega

/-- With every token inside the table the taken rows are the gathered rows. -/
theorem takeRows_of_range (tok : IVec S131072 32) (tab : FVec F S32000x256 .f32)
    (h : ∀ i, 0 ≤ (tok i).toInt ∧ (tok i).toInt < 32000) :
    takeRows tok tab = Host.gather gather_S32000x256_S131072x1_S131072x256_1_0_n_n_0_1_1256 tab (tokCol tok) := by
  funext i
  unfold takeRows
  obtain ⟨j, hj⟩ : ∃ j : S131072.Idx, broadcastInDim S131072x256 ![0] bcast_S131072_S131072x256_0 (tokInside tok) i = tokInside tok j :=
    ⟨_, rfl⟩
  show Scalar.select (broadcastInDim S131072x256 ![0] bcast_S131072_S131072x256_0 (tokInside tok) i) _ _ = _
  rw [hj, tokInside_of_range tok h j]
  exact if_pos rfl

end Cert.Conv.K

end
-- ==== Proof.InvSqrt.lean ====
/-
  The inverse square root of a degree, 0 where the degree is not positive, is a non-negative number other than +∞.

  For an extended real x take x^(-1/2) where x > 0 and 0 elsewhere. If x = +∞ the value is 0; if x is a positive real it
  is the real 1/√x > 0; elsewhere it is 0. So whatever the degrees are, every entry of the vector of these values is at
  least 0 and is not +∞: it is a factor that comes out of sums.
-/
import proofs.«419247_j38972533244081_2_alg».proof.Proof.KernelSpec
import Idealize.ShloMosaic.PureOps.Ideal.Laws

set_option maxRecDepth 16384

noncomputable section

namespace Cert.Conv.K

open Idealize.ShloMosaic Idealize.ShloMosaic.TcCoe Idealize.ShloMosaic.ValueIdx
open Cert.KernelIdeal Cert.KernelIdeal.Gen DenseRows

theorem select_rsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  induction x using EReal.rec with
  | bot => simp
  | top => simp
  | coe r =>
    by_cases hr : 0 < r
    · have h1 : ¬ r < 0 := not_lt.mpr hr.le
      have h2 : r ≠ 0 := hr.ne'
      have h3 : (0 : ℝ) ≤ (Real.sqrt r)⁻¹ := inv_nonneg.mpr (Real.sqrt_nonneg r)
      simp [hr, h1, h2, EReal.coe_nonneg.mpr h3]
    · simp [hr]

theorem dinv_nonneg_ne_top (a1 : IVec S2x524288 32) (r : Fin 131072) :
    0 ≤ dinv a1 (ix1 r) ∧ dinv a1 (ix1 r) ≠ ⊤ := by
  have e : dinv a1 (ix1 r)
      = Scalar.select (Ideal.cmp .ogt (degree (F := Ideal) (dstWords a1) (ix1 r)) (Ideal.ofBits .f32 0x00000000#32))
          (Ideal.rsqrt (degree (F := Ideal) (dstWords a1) (ix1 r))) (Ideal.ofBits .f32 0x00000000#32) := by
    unfold dinv invSqrt
    generalize degree (F := Ideal) (dstWords a1) = d
    simp only [select, cmpf, Host.rsqrt, broadcastInDim, constant, id, Ideal.cmpf_def, Ideal.hostUnary_rsqrt_def, Ideal.ofBits_def]
  rw [e, Ideal.ofBits_zero_f32]
  exact select_rsqrt_nonneg_ne_top _

end Cert.Conv.K

end
-- ==== Proof.LibSumFactor.lean ====
/-
  Taking a common factor out of a sum of extended reals.

  Multiplication of extended reals does not distribute over addition in general (⊤ + ⊥ against a negative factor), but it
  does when the factor is non-negative and not +∞: then (y + z) · q = y · q + z · q for all y and z. By induction the
  same holds for finite sums, and for the sums of selected terms that an accumulating scatter produces: if every selected
  term carries a third factor equal to one common q, the sum of the three-factor terms is the sum of the two-factor terms
  times q.
-/
import Mathlib.Data.EReal.Inv
import Mathlib.Algebra.BigOperators.Group.Finset.Basic

open scoped BigOperators

namespace Cert.SumFactor

/-- A non-negative factor other than +∞ comes out of a finite sum on the right. -/
theorem sum_mul {ι : Type*} (s : Finset ι) (f : ι → EReal) (q : EReal) (hq : 0 ≤ q) (hq' : q ≠ ⊤) :
    (∑ i ∈ s, f i) * q = ∑ i ∈ s, f i * q := by
  classical
  induction s using Finset.induction_on with
  | empty => simp
  | insert a s ha ih =>
    rw [Finset.sum_insert ha, Finset.sum_insert ha, EReal.right_distrib_of_nonneg_of_ne_top hq hq', ih]

/-- Selected terms a · (u · w) whose last factor is the common value q wherever the term is selected: their sum is the
    sum of the selected a · u, times q. -/
theorem sum_select_factor {ι : Type*} [Fintype ι] (sel : ι → Prop) [DecidablePred sel] (a u w : ι → EReal) (q : EReal)
    (hq : 0 ≤ q) (hq' : q ≠ ⊤) (hw : ∀ p, sel p → w p = q) :
    (∑ p, if sel p then a p * (u p * w p) else 0) = (∑ p, if sel p then a p * u p else 0) * q := by
  rw [sum_mul _ _ q hq hq']
  refine Finset.sum_congr rfl fun p _ => ?_
  by_cases h : sel p
  · rw [if_pos h, if_pos h, hw p h, mul_assoc]
  · rw [if_neg h, if_neg h, zero_mul]

end Cert.SumFactor
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«419247_j38972533244081_2_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«419247_j38972533244081_2_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.NormFactor.lean ====
/-
  The symmetric normalisation of a graph convolution, factored through the scatter.

  Rows of an [n × f] matrix Z are gathered by a column of source words, each gathered row p is multiplied by the
  product q[src p] · q[dst p] of two entries of a vector q gathered by the source and the destination words, and the
  rows are added into an [n × f] array of zeros at the rows the destination words name. Because every update landing on
  row r carries the factor q[r], that factor comes out of row r's sum: the result is the same scatter of the gathered
  rows of (Z with row i multiplied by q[i]), with row r of it multiplied by q[r] afterwards. The factor comes out of the
  sum because q's entries are non-negative and not +∞ (multiplication of extended reals distributes over addition for
  such a factor, whatever the summands). No hypothesis is made on the source words, and of the destination words only
  that the word used for gathering is the word used for scattering whenever the latter names a row.
-/
import proofs.«419247_j38972533244081_2_alg».proof.Proof.LibSumFactor
import proofs.«419247_j38972533244081_2_alg».proof.Proof.LibGatherClamp
import proofs.«419247_j38972533244081_2_alg».proof.Proof.LibScatterHost
import proofs.«419247_j38972533244081_2_alg».proof.Proof.ConvSpec

noncomputable section

open scoped BigOperators

namespace Cert.Conv

open Idealize.ShloMosaic Idealize.ShloMosaic.ValueIdx DenseRows

/-- The row a gather reads for a start word: the word read signed, as a natural number, clamped to the last row. -/
def rowOf (n : Nat) (hn : 0 < n) (w : BitVec 32) : Fin n := ⟨min w.toInt.toNat (n - 1), by omega⟩

theorem rowOf_of_toInt {n : Nat} (hn : 0 < n) (w : BitVec 32) (r : Fin n) (h : w.toInt = ((r.val : ℕ) : Int)) :
    rowOf n hn w = r := by
  apply Fin.ext
  show min w.toInt.toNat (n - 1) = r.val
  rw [h, Int.toNat_natCast]
  have := r.isLt
  omega

theorem scatter_norm_factor {n e f : ℕ} (hn : 0 < n)
    (dS : ScatterDims ⟨2, ![n, f]⟩ ⟨2, ![e, 1]⟩ ⟨2, ![e, f]⟩)
    (huw : dS.updateWindowDims = [1]) (hiw : dS.insertedWindowDims = [0])
    (hsd : dS.scatterDimsToOperandDims = [0]) (hivd : dS.indexVectorDim = 1)
    (dG : GatherDims ⟨2, ![n, f]⟩ ⟨2, ![e, 1]⟩ ⟨2, ![e, f]⟩)
    (hod : dG.offsetDims = [1]) (hcoll : dG.collapsedSliceDims = [0]) (hob : dG.operandBatchingDims = [])
    (hsim : dG.startIndexMap = [0]) (hivd' : dG.indexVectorDim = 1)
    (dV : GatherDims ⟨1, ![n]⟩ ⟨2, ![e, 1]⟩ ⟨1, ![e]⟩)
    (hcollV : dV.collapsedSliceDims = [0]) (hobV : dV.operandBatchingDims = [])
    (hsimV : dV.startIndexMap = [0]) (hivdV : dV.indexVectorDim = 1)
    (Z : Mat n f) (q : Col n) (hq : ∀ r : Fin n, 0 ≤ q (ix1 r) ∧ q (ix1 r) ≠ ⊤)
    (dstI srcW dstW : IVec ⟨2, ![e, 1]⟩ 32)
    (hdst : ∀ (p : Fin e) (r : Fin n), (dstI (ix2 p (0 : Fin 1))).toInt = ((r.val : ℕ) : Int) →
      dstW (ix2 p (0 : Fin 1)) = dstI (ix2 p (0 : Fin 1)))
    (zero : Mat n f) (hz : ∀ i, zero i = 0)
    (h1 : (⟨1, ![e]⟩ : Shape).BroadcastsInDim ⟨2, ![e, 1]⟩ ![0])
    (h2 : (⟨2, ![e, 1]⟩ : Shape).BroadcastsInDim ⟨2, ![e, f]⟩ ![0, 1]) :
    Host.scatterAdd (F := Ideal) dS zero dstI
        (mulf (Host.gather dG Z srcW)
          (broadcastInDim (⟨2, ![e, f]⟩ : Shape) ![0, 1] h2 (broadcastInDim (⟨2, ![e, 1]⟩ : Shape) ![0] h1
            (mulf (Host.gather dV q srcW) (Host.gather dV q dstW)))))
      = scaleRows (Host.scatterAdd (F := Ideal) dS zero dstI (Host.gather dG (scaleRows Z q) srcW)) q := by
  funext i
  obtain ⟨r, c, rfl⟩ : ∃ (r : Fin n) (c : Fin f), i = ix2 r c := ⟨i 0, i 1, eq_ix2 i⟩
  rw [scaleRows_apply, Cert.LibScatterHost.scatterAdd2_apply dS huw hiw hsd hivd,
    Cert.LibScatterHost.scatterAdd2_apply dS huw hiw hsd hivd, hz, zero_add, zero_add]
  have key := Cert.SumFactor.sum_select_factor (ι := Fin e)
    (fun p => (dstI (ix2 p (0 : Fin 1))).toInt = ((r.val : ℕ) : Int))
    (fun p => Z (ix2 (rowOf n hn (srcW (ix2 p (0 : Fin 1)))) c))
    (fun p => q (ix1 (rowOf n hn (srcW (ix2 p (0 : Fin 1))))))
    (fun p => q (ix1 (rowOf n hn (dstW (ix2 p (0 : Fin 1))))))
    (q (ix1 r)) (hq r).1 (hq r).2
    (fun p hp => by
      show q (ix1 (rowOf n hn (dstW (ix2 p (0 : Fin 1))))) = q (ix1 r)
      rw [hdst p r hp, rowOf_of_toInt hn _ r hp])
  refine Eq.trans (Finset.sum_congr rfl fun p _ => ?_) (key.trans (congrArg (· * q (ix1 r)) (Finset.sum_congr rfl fun p _ => ?_)))
  · refine if_congr Iff.rfl ?_ rfl
    show Host.gather dG Z srcW (ix2 p c) * _ = _
    rw [Cert.Gcn.GatherClamp.gather2_clamp_apply hn dG hod hcoll hob hsim hivd', column_host_form]
    show _ * (Host.gather dV q srcW (ix1 p) * Host.gather dV q dstW (ix1 p)) = _
    rw [Cert.Gcn.GatherClamp.gather1_clamp_apply hn dV hcollV hobV hsimV hivdV,
      Cert.Gcn.GatherClamp.gather1_clamp_apply hn dV hcollV hobV hsimV hivdV]
    rfl
  · refine if_congr Iff.rfl ?_ rfl
    rw [Cert.Gcn.GatherClamp.gather2_clamp_apply hn dG hod hcoll hob hsim hivd']
    rfl

end Cert.Conv

end
-- ==== Proof.RefValue.lean ====
/-
  What the reference program computes is what the kernel's program computes.

  The reference multiplies each gathered row by the product q[src] · q[dst] of the two ends' inverse square roots of
  degrees before it adds the rows up at the destinations; the kernel's program scales row i of the product with the
  weights by q[i] before the edges and row r of the sum by q[r] after them. The two agree because every term of row r's
  sum carries the factor q[r], which is non-negative and not +∞ and so comes out of the sum. Everything else is the same
  operations in two spellings: a product with transposed weights, a bias row, the positive part, and the embedding
  rows, which with every token inside the table need no filler.
-/
import proofs.«419247_j38972533244081_2_alg».proof.Proof.RefRead
import proofs.«419247_j38972533244081_2_alg».proof.Proof.KernelSpec
import proofs.«419247_j38972533244081_2_alg».proof.Proof.TakeRows
import proofs.«419247_j38972533244081_2_alg».proof.Proof.InvSqrt
import proofs.«419247_j38972533244081_2_alg».proof.Proof.NormFactor

set_option maxRecDepth 16384

noncomputable section

namespace Cert.Conv.R

open Idealize.ShloMosaic Idealize.ShloMosaic.TcCoe Idealize.ShloMosaic.ValueIdx DenseRows Cert.Conv
open Cert.ReferenceIdeal Cert.ReferenceIdeal.Gen Cert.ReferenceIdeal.ReadP

variable (a0 : IVec S131072 32) (a1 : IVec S2x524288 32) (a2 : FVec Ideal S32000x256 .f32) (a3 : FVec Ideal S128x256 .f32)
  (a4 : FVec Ideal S128 .f32) (a5 : FVec Ideal S128x128 .f32) (a6 : FVec Ideal S128 .f32) (a7 : FVec Ideal S128x128 .f32)
  (a8 : FVec Ideal S128 .f32)

/-! ## The node features -/

theorem feat_eq (htok : ∀ i, 0 ≤ (a0 i).toInt ∧ (a0 i).toInt < 32000) :
    val_main_v11 (F := Ideal) a0 a2 a3 a4 = K.feat a0 a2 a3 a4 := by
  unfold val_main_v11 val_main_v8 val_main_v10 val_main_v9 val_main_v7 val_main_v6 K.feat
  rw [K.takeRows_of_range a0 a2 htok]
  rw [show dot_S131072x256_S256x128_S131072x128_1_0_0_1_n_n = DotDims.plain 131072 256 128 from rfl,
    dotGeneral_plain_eq_mm, bias_host_form, broadcastInDim_asRow, shapeCast_asRow]
  rfl

/-! ## The edge words and the inverse square roots of the degrees -/

theorem src_eq : val_main_v15 (F := Ideal) a1 = K.srcWords a1 := rfl
theorem dst_eq : val_main_v18 (F := Ideal) a1 = K.dstWords a1 := rfl
theorem dinv_eq : val_main_v26 (F := Ideal) a1 = K.dinv a1 := by
  unfold val_main_v26 val_main_v24 val_main_v25 val_main_call0_v1 val_main_call0_v0 val_main_cst_3 val_main_v22 val_main_v23
    val_main_v21 val_main_v20 val_main_v19 val_main_cst val_main_cst_1 val_main_cst_2 K.dinv K.invSqrt K.degree K.asCol
  rw [dst_eq]
  rfl

/-! ## One pass along the edges -/

/-- The word used for gathering at a destination is the word used for scattering, whenever the latter names a node. -/
theorem wrapNode_of_node (d : IVec S655360 32) (k : S655360.Idx) (h : 0 ≤ (d k).toInt) : K.wrapNode d k = d k := by
  show Scalar.select (IntOp.cmpi .slt (d k) (0#32)) _ (d k) = d k
  have hc : IntOp.cmpi .slt (d k) (0#32) ≠ 1#1 := fun e => by
    have := IntOp.cmpi_slt.mp e
    rw [show (0#32 : BitVec 32).toInt = 0 from by decide] at this
    omega
  exact if_neg hc

/-- Per edge and column, the product q[src] · q[dst] of the two ends' inverse square roots of degrees. -/
def edgeNorm : FVec Ideal S655360x128 .f32 :=
  broadcastInDim S655360x128 ![0, 1] bcast_S655360x1_S655360x128_0_1 (broadcastInDim S655360x1 ![0] bcast_S655360_S655360x1_0
    (mulf (Host.gather gather_S131072_S655360x1_S655360_n_0_n_n_0_1_1 (K.dinv a1) (K.asCol (K.wrapNode (K.srcWords a1))))
      (Host.gather gather_S131072_S655360x1_S655360_n_0_n_n_0_1_1 (K.dinv a1) (K.asCol (K.wrapNode (K.dstWords a1))))))

/-- The reference's normalised pass (each gathered row of X · w times q[src] · q[dst], added up at the destinations) is
    the kernel's pass of the rows of X · w scaled by q, with the sums scaled by q. -/
theorem conv_edges (X : Mat 131072 128) (w : Mat 128 128) :
    Host.scatterAdd (F := Ideal) scatter_S131072x128_S655360x1_S655360x128_1_0_0_1
        (broadcastInDim S131072x128 ![] bcast_S_S131072x128 (constant S_ .f32 0x00000000#32))
        (K.asCol (K.dstWords a1))
        (mulf (Host.gather gather_S131072x128_S655360x1_S655360x128_1_0_n_n_0_1_1128
            (Host.dotGeneral dot_S131072x128_S128x128_S131072x128_1_0_0_1_n_n none X w) (K.asCol (K.wrapNode (K.srcWords a1))))
          (edgeNorm a1))
      = scaleCol (K.passEdges (F := Ideal) (scaleCol (mm X w) (K.dcol a1)) (K.srcWords a1) (K.dstWords a1)) (K.dcol a1) := by
  rw [show dot_S131072x128_S128x128_S131072x128_1_0_0_1_n_n = DotDims.plain 131072 128 128 from rfl, dotGeneral_plain_eq_mm]
  unfold K.dcol edgeNorm
  rw [scaleCol_shapeCast, scaleCol_shapeCast]
  refine (scatter_norm_factor (n := 131072) (e := 655360) (f := 128) (by decide)
    scatter_S131072x128_S655360x1_S655360x128_1_0_0_1 rfl rfl rfl rfl
    gather_S131072x128_S655360x1_S655360x128_1_0_n_n_0_1_1128 rfl rfl rfl rfl rfl
    gather_S131072_S655360x1_S655360_n_0_n_n_0_1_1 rfl rfl rfl rfl
    (mm X w) (K.dinv a1) (K.dinv_nonneg_ne_top a1)
    (K.asCol (K.dstWords a1)) (K.asCol (K.wrapNode (K.srcWords a1))) (K.asCol (K.wrapNode (K.dstWords a1)))
    (fun p r hp => ?_)
    (broadcastInDim S131072x128 ![] bcast_S_S131072x128 (constant S_ .f32 0x00000000#32)) (fun i => ?_)
    bcast_S655360_S655360x1_0 bcast_S655360x1_S655360x128_0_1).trans ?_
  · obtain ⟨k, hk, hk'⟩ : ∃ k : S655360.Idx, K.asCol (K.dstWords a1) (ix2 p (0 : Fin 1)) = K.dstWords a1 k
        ∧ K.asCol (K.wrapNode (K.dstWords a1)) (ix2 p (0 : Fin 1)) = K.wrapNode (K.dstWords a1) k := ⟨_, rfl, rfl⟩
    rw [hk']
    rw [hk] at hp ⊢
    exact wrapNode_of_node _ k (by rw [hp]; exact Int.natCast_nonneg _)
  · show Ideal.ofBits .f32 0x00000000#32 = 0
    exact Ideal.ofBits_zero_f32
  · rfl

/-! ## The reference's stages around the edges, in the kernel program's terms -/

theorem srcCol1_eq : val_main_v49 (F := Ideal) a1 = K.asCol (K.wrapNode (K.srcWords a1)) := by
  unfold val_main_v49 val_main_v48 val_main_v45 val_main_v47 val_main_v44 val_main_v46 val_main_c_8 val_main_c_9
  rw [src_eq]; rfl
theorem srcCol2_eq : val_main_v68 (F := Ideal) a1 = K.asCol (K.wrapNode (K.srcWords a1)) := by
  unfold val_main_v68 val_main_v67 val_main_v64 val_main_v66 val_main_v63 val_main_v65 val_main_c_11 val_main_c_12
  rw [src_eq]; rfl
theorem dstCol1_eq : val_main_v55 (F := Ideal) a1 = K.asCol (K.dstWords a1) := by
  unfold val_main_v55; rw [dst_eq]; rfl
theorem dstCol2_eq : val_main_v74 (F := Ideal) a1 = K.asCol (K.dstWords a1) := by
  unfold val_main_v74; rw [dst_eq]; rfl
theorem zeros1_eq : val_main_v54 (F := Ideal)
    = broadcastInDim S131072x128 ![] bcast_S_S131072x128 (constant (F := Ideal) S_ .f32 0x00000000#32) := rfl
theorem zeros2_eq : val_main_v73 (F := Ideal)
    = broadcastInDim S131072x128 ![] bcast_S_S131072x128 (constant (F := Ideal) S_ .f32 0x00000000#32) := rfl
theorem norm_eq : val_main_v41 (F := Ideal) a1
    = mulf (Host.gather gather_S131072_S655360x1_S655360_n_0_n_n_0_1_1 (K.dinv a1) (K.asCol (K.wrapNode (K.srcWords a1))))
        (Host.gather gather_S131072_S655360x1_S655360_n_0_n_n_0_1_1 (K.dinv a1) (K.asCol (K.wrapNode (K.dstWords a1)))) := by
  unfold val_main_v41 val_main_v33 val_main_v40 val_main_v32 val_main_v39 val_main_v31 val_main_v38 val_main_v28 val_main_v30
    val_main_v35 val_main_v37 val_main_v27 val_main_v29 val_main_v34 val_main_v36 val_main_c_4 val_main_c_5 val_main_c_6 val_main_c_7
  rw [dinv_eq, src_eq, dst_eq]; rfl
theorem norm1_eq : val_main_v52 (F := Ideal) a1 = edgeNorm a1 := by
  unfold val_main_v52 val_main_v51 edgeNorm; rw [norm_eq]
theorem norm2_eq : val_main_v71 (F := Ideal) a1 = edgeNorm a1 := by
  unfold val_main_v71 val_main_v70 edgeNorm; rw [norm_eq]

/-! ## The two convolutions and the result -/

theorem rowOf128_eq (b : FVec Ideal S128 .f32) : K.rowOf128 b = asRow b := shapeCast_asRow b _

/-- The first convolution's result before the positive part. -/
theorem conv1_eq (htok : ∀ i, 0 ≤ (a0 i).toInt ∧ (a0 i).toInt < 32000) :
    val_main_v59 (F := Ideal) a0 a1 a2 a3 a4 a5 a6
      = addRow (scaleCol (K.agg1 a0 a1 a2 a3 a4 a5) (K.dcol a1)) (K.rowOf128 a6) := by
  unfold val_main_v59 val_main_v58 val_main_v57 val_main_v56 val_main_v53 val_main_v50 val_main_v43 val_main_v42
  rw [feat_eq a0 a2 a3 a4 htok, bias_host_form, broadcastInDim_asRow, rowOf128_eq, zeros1_eq, dstCol1_eq, srcCol1_eq, norm1_eq]
  unfold K.agg1 K.lin1
  rw [← conv_edges a1 (K.feat a0 a2 a3 a4) (K.tr128 a5)]
  rfl

/-- The second convolution's result. -/
theorem conv2_eq (htok : ∀ i, 0 ≤ (a0 i).toInt ∧ (a0 i).toInt < 32000) :
    val_main_v78 (F := Ideal) a0 a1 a2 a3 a4 a5 a6 a7 a8 = K.out2 a0 a1 a2 a3 a4 a5 a6 a7 a8 := by
  unfold val_main_v78 val_main_v77 val_main_v76 val_main_v75 val_main_v72 val_main_v69 val_main_v62 val_main_v61
    val_main_v60 val_main_call1_v0 val_main_call1_cst
  rw [conv1_eq a0 a1 a2 a3 a4 a5 a6 htok]
  rw [relu_host_form]
  rw [bias_host_form, broadcastInDim_asRow, zeros2_eq, dstCol2_eq, srcCol2_eq, norm2_eq]
  unfold K.out2 K.agg2 K.lin2
  rw [rowOf128_eq a8, ← conv_edges a1 (relu (addRow (scaleCol (K.agg1 a0 a1 a2 a3 a4 a5) (K.dcol a1)) (K.rowOf128 a6))) (K.tr128 a7)]
  rfl

/-- The reference's float result is the kernel's second convolution regrouped into graphs. -/
theorem result_eq (htok : ∀ i, 0 ≤ (a0 i).toInt ∧ (a0 i).toInt < 32000) :
    val_main_v79 (F := Ideal) a0 a1 a2 a3 a4 a5 a6 a7 a8
      = shapeCast S64x2048x128 (K.out2 a0 a1 a2 a3 a4 a5 a6 a7 a8) shapeCasts_S131072x128_S64x2048x128 := by
  unfold val_main_v79
  rw [conv2_eq a0 a1 a2 a3 a4 a5 a6 a7 a8 htok]

end Cert.Conv.R

end
-- ==== Proof.TokenRange.lean ====
/-
  The precondition's two conjuncts on the token array, read back: every token word, read as a signed integer, is at
  least 0 and below the table's 32000 rows. The precondition is a conjunction whose last two conjuncts are
  "all (tokens ≥ 0)" and "all (tokens < 32000)"; a conjunction that is 1 has both parts 1, an "all" that is 1 had a 1 at
  every position, and a signed comparison that is 1 says its inequality of the two words read as integers.
-/
import proofs.«419247_j38972533244081_2_alg».proof.Pre_finite_inputs
import Idealize.ShloMosaic.Lib.ReduceAll
import Idealize.ShloMosaic.Lib.Affine

noncomputable section

namespace Cert.Conv

open Idealize.ShloMosaic Cert.Pre_finite_inputs

instance : Subsingleton Cert.Pre_finite_inputs.S_.Idx := ⟨fun a b => funext fun d => d.elim0⟩

theorem tokens_in_range {F : FTy → Type} [FloatOps F] [Cert.Pre_finite_inputs.Facts]
    (a0 : IVec S131072 32) (a1 : IVec S2x524288 32) (a2 : FVec F S32000x256 .f32) (a3 : FVec F S128x256 .f32)
    (a4 : FVec F S128 .f32) (a5 : FVec F S128x128 .f32) (a6 : FVec F S128 .f32) (a7 : FVec F S128x128 .f32)
    (a8 : FVec F S128 .f32)
    (h : Cert.Pre_finite_inputs.fn (F := F) a0 a1 a2 a3 a4 a5 a6 a7 a8 = fun _ => 1#1) (i : S131072.Idx) :
    0 ≤ (a0 i).toInt ∧ (a0 i).toInt < 32000 := by
  have h0 := congrFun h (fun a => a.elim0)
  dsimp only [Cert.Pre_finite_inputs.fn, fn_part1, fn_part2] at h0
  obtain ⟨h1, hlt⟩ := IntOp.andi_eq_one.mp h0
  obtain ⟨-, hge⟩ := IntOp.andi_eq_one.mp h1
  have e1 := Host.reduce_andi_all _ _ _ _ _ hge i
  have e2 := Host.reduce_andi_all _ _ _ _ _ hlt i
  have g1 := IntOp.cmpi_sge.mp e1
  have g2 := IntOp.cmpi_slt.mp e2
  exact ⟨g1, g2⟩

end Cert.Conv

end
-- ==== Proof.lean ====
/-
  The claims of this certificate: a two-layer graph convolution over token embeddings, computed by four matrix kernels
  with gathers and scatter-adds between them, against its plain reference.

  Both programs embed the tokens (rows of a table), project them, and apply two graph convolutions with the symmetric
  normalisation q[src] · q[dst], q the inverse square roots of the node degrees (one loop edge added per node). The
  reference multiplies every gathered row by q[src] · q[dst] and adds the rows up at the destinations; the kernel's
  program scales row i by q[i] inside the matrix kernel before the edges and row r by q[r] inside the next one after
  them. Row r's sum only has terms with the factor q[r], and q[r] is non-negative and not +∞, so it comes out of the sum
  on the extended reals whatever the other factors are: no finiteness of the float inputs is used. The embedding differs
  between the two programs only for a token outside the table (one clamps, the other fills), which the precondition
  excludes. The three frames are the generated ones; the reference's is its run with the results dropped.
-/
import proofs.«419247_j38972533244081_2_alg».proof.Defs
import proofs.«419247_j38972533244081_2_alg».proof.Proof.Gen.Kernel
import proofs.«419247_j38972533244081_2_alg».proof.Proof.Gen.Kernel.Frame
import proofs.«419247_j38972533244081_2_alg».proof.Proof.Gen.KernelIdeal
import proofs.«419247_j38972533244081_2_alg».proof.Proof.Gen.KernelIdeal.Frame
import proofs.«419247_j38972533244081_2_alg».proof.Proof.Gen.ReferenceIdeal
import proofs.«419247_j38972533244081_2_alg».proof.Proof.Gen.Pre_finite_inputs
import proofs.«419247_j38972533244081_2_alg».proof.Proof.RefRun
import proofs.«419247_j38972533244081_2_alg».proof.Proof.RefRead
import proofs.«419247_j38972533244081_2_alg».proof.Proof.KernelRun
import proofs.«419247_j38972533244081_2_alg».proof.Proof.KernelValue
import proofs.«419247_j38972533244081_2_alg».proof.Proof.RefValue
import proofs.«419247_j38972533244081_2_alg».proof.Proof.TokenRange
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

/-- The reference's run with its four results dropped. -/
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-- Both programs end with the same results: the kernel's program at its last boundary's contents, which are the second
    convolution regrouped, the tokens regrouped and two constants; the reference at its composed term, which under the
    precondition's token range is the same function of the same arguments. -/
theorem algebraic : Cert.algebraic_KernelIdeal_ReferenceIdeal := by
  intro m ρ m' ρ' hpre hagree
  refine ⟨fun c => Cert.KernelIdeal.Gen.W12 m ρ c (Proc.devRef .tc Cert.KernelIdeal.main_v49),
    fun c => Cert.KernelIdeal.Gen.W12 m ρ c (Proc.devRef .tc Cert.KernelIdeal.main_v50),
    fun c => Cert.KernelIdeal.Gen.W12 m ρ c (Proc.devRef .tc Cert.KernelIdeal.main_v51),
    fun c => Cert.KernelIdeal.Gen.W12 m ρ c (Proc.devRef .tc Cert.KernelIdeal.main_v53),
    Cert.KernelIdeal.GenP.run_results (F := Ideal) m ρ, ?_⟩
  refine (θ_run Cert.ReferenceIdeal.defs _ _).mono (fun r h c => ?_) (Cert.ReferenceIdeal.ValueP.run (F := Ideal) m' ρ')
  obtain ⟨h0, h1, h2, h3, hargs⟩ := h c
  obtain ⟨e0, e1, e2, e3, e4, e5, e6, e7, e8⟩ := hagree c
  have htok := Cert.Conv.tokens_in_range (F := Ideal) _ _ _ _ _ _ _ _ _ (hpre c)
  refine ⟨h0.trans ?_, h1.trans ?_, h2.trans ?_, h3.trans ?_, hargs⟩
  · rw [Cert.ReferenceIdeal.ReadP.val_main_v79_eq, e0, e1, e2, e3, e4, e5, e6, e7, e8,
      Cert.Conv.R.result_eq _ _ _ _ _ _ _ _ _ htok]
    exact (Cert.Conv.K.W12_v49 m ρ c).symm
  · rw [e0]
    exact (Cert.Conv.K.W12_v50 m ρ c).symm
  · exact (Cert.Conv.K.W12_v51 m ρ c).symm
  · exact (Cert.Conv.K.W12_v53 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
